-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S3x33x33x33 : Shape := ⟨4, ![3, 33, 33, 33]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  bcast_S_S3x33x33x33 : S_.BroadcastsInDim S3x33x33x33 (![] : Fin 0 → Fin S3x33x33x33.rank)
  reducesTo_S3x33x33x33_S_d0_1_2_3 : S3x33x33x33.ReducesTo [0, 1, 2, 3] S_

variable [Facts]

def fn {F : FTy → Type} [FloatOps F] (main_arg0 : FVec F S8x3x1024x1024 .f32) (main_arg1 : FVec F S3x33x33x33 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S3x33x33x33 .f32 := Host.absf main_arg1
  let main_cst_0 : FVec F S_ .f32 := constant S_ .f32 0x7F800000#32
  let main_v5 : FVec F S3x33x33x33 .f32 := broadcastInDim S3x33x33x33 ![] bcast_S_S3x33x33x33 main_cst_0
  let main_v6 : IVec S3x33x33x33 1 := cmpf .olt main_v4 main_v5
  let main_c_1 : IVec S_ 1 := constantI S_ 1 1#1
  let main_v7 : IVec S_ 1 := (fun x v => Host.reduce IntOp.andi x v reducesTo_S3x33x33x33_S_d0_1_2_3 h_S_) main_v6 main_c_1
  let main_v8 : IVec S_ 1 := andi main_v3 main_v7
  main_v8
-- ==== Kernel.lean ====
abbrev S8x3x1024x1024 : Shape := ⟨4, ![8, 3, 1024, 1024]⟩
abbrev S3x33x33x33 : Shape := ⟨4, ![3, 33, 33, 33]⟩
abbrev S1x3x16x128 : Shape := ⟨4, ![1, 3, 16, 128]⟩
abbrev S1x1x16x128 : Shape := ⟨4, ![1, 1, 16, 128]⟩
abbrev S16x128 : Shape := ⟨2, ![16, 128]⟩
abbrev S1x2048 : Shape := ⟨2, ![1, 2048]⟩
abbrev S33x2048 : Shape := ⟨2, ![33, 2048]⟩
abbrev S1x33x33x33 : Shape := ⟨4, ![1, 33, 33, 33]⟩
abbrev S33x33x33 : Shape := ⟨3, ![33, 33, 33]⟩
abbrev S1089x33 : Shape := ⟨2, ![1089, 33]⟩
abbrev S1089x2048 : Shape := ⟨2, ![1089, 2048]⟩
abbrev S33x33x2048 : Shape := ⟨3, ![33, 33, 2048]⟩
abbrev S1x33x2048 : Shape := ⟨3, ![1, 33, 2048]⟩
abbrev S2048 : Shape := ⟨1, ![2048]⟩

abbrev nBuf : Space → Nat
  | .hbm => 3
  | .vmem => 5
  | .smem => 0
  | _ => 0

abbrev bufTy : (tb : Table) → Fin (tcTables nBuf tb) → BufTy
  | .hbm, ⟨0, _⟩ => ⟨S8x3x1024x1024, .f32⟩
  | .hbm, ⟨1, _⟩ => ⟨S3x33x33x33, .f32⟩
  | .hbm, ⟨2, _⟩ => ⟨S8x3x1024x1024, .f32⟩
  | .local _ .vmem, ⟨0, _⟩ => ⟨S1x3x16x128, .f32⟩
  | .local _ .vmem, ⟨1, _⟩ => ⟨S1x3x16x128, .f32⟩
  | .local _ .vmem, ⟨2, _⟩ => ⟨S3x33x33x33, .f32⟩
  | .local _ .vmem, ⟨3, _⟩ => ⟨S1x3x16x128, .f32⟩
  | .local _ .vmem, ⟨4, _⟩ => ⟨S1x3x16x128, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 64, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x3x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S3x33x33x33 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x3x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x3x16x128_S1x1x16x128_0_0_0_0 : ∀ a, (![0, 0, 0, 0] : Fin 4 → Nat) a + S1x1x16x128.size a ≤ S1x3x16x128.size a
  h_S1x1x16x128 : 0 < S1x1x16x128.numel
  shapeCasts_S1x1x16x128_S16x128 : S1x1x16x128.ShapeCasts S16x128
  inb_S1x3x16x128_S1x1x16x128_0_1_0_0 : ∀ a, (![0, 1, 0, 0] : Fin 4 → Nat) a + S1x1x16x128.size a ≤ S1x3x16x128.size a
  inb_S1x3x16x128_S1x1x16x128_0_2_0_0 : ∀ a, (![0, 2, 0, 0] : Fin 4 → Nat) a + S1x1x16x128.size a ≤ S1x3x16x128.size a
  shapeCasts_S16x128_S1x2048 : S16x128.ShapeCasts S1x2048
  iota_S33x2048_d0_w32 : S33x2048.Iotas .tc 32 [0]
  broadcasts_S1x2048_S33x2048 : S1x2048.Broadcasts S33x2048
  shapeCasts_S1x2048_S1x2048 : S1x2048.ShapeCasts S1x2048
  bitsLt_bf16_f32 : FTy.bits .bf16 < FTy.bits .f32
  inb_S3x33x33x33_S1x33x33x33_0_0_0_0 : ∀ a, (![0, 0, 0, 0] : Fin 4 → Nat) a + S1x33x33x33.size a ≤ S3x33x33x33.size a
  h_S1x33x33x33 : 0 < S1x33x33x33.numel
  shapeCasts_S1x33x33x33_S33x33x33 : S1x33x33x33.ShapeCasts S33x33x33
  shapeCasts_S33x33x33_S1089x33 : S33x33x33.ShapeCasts S1089x33
  shapeCasts_S1089x2048_S33x33x2048 : S1089x2048.ShapeCasts S33x33x2048
  shapeCasts_S33x2048_S1x33x2048 : S33x2048.ShapeCasts S1x33x2048
  broadcasts_S1x33x2048_S33x33x2048 : S1x33x2048.Broadcasts S33x33x2048
  reduces_S33x33x2048_S33x2048 : S33x33x2048.Reduces [1] S33x2048
  reduces_S33x2048_S2048 : S33x2048.Reduces [0] S2048
  shapeCasts_S2048_S16x128 : S2048.ShapeCasts S16x128
  shapeCasts_S16x128_S1x1x16x128 : S16x128.ShapeCasts S1x1x16x128
  inb_S3x33x33x33_S1x33x33x33_1_0_0_0 : ∀ a, (![1, 0, 0, 0] : Fin 4 → Nat) a + S1x33x33x33.size a ≤ S3x33x33x33.size a
  inb_S3x33x33x33_S1x33x33x33_2_0_0_0 : ∀ a, (![2, 0, 0, 0] : Fin 4 → Nat) a + S1x33x33x33.size a ≤ S3x33x33x33.size a
  dot_S1089x33_S33x2048_S1089x2048_1_0_0_1_n_n_wf : DotDims.WF S1089x33 S33x2048 S1089x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x128.size a ≤ S8x3x1024x1024.size a
  hwx0_0 : ∀ i : grid0.Coords, EltTy.bits .f32 = 32 ∨ (Rect.block (s := S8x3x1024x1024) S1x3x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x33x33x33.size a ≤ S3x33x33x33.size a
  hwx0_1 : ∀ i : grid0.Coords, EltTy.bits .f32 = 32 ∨ (Rect.block (s := S3x33x33x33) S3x33x33x33.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x16x128.size a ≤ S8x3x1024x1024.size a
  hwx0_2 : ∀ i : grid0.Coords, EltTy.bits .f32 = 32 ∨ (Rect.block (s := S8x3x1024x1024) S1x3x16x128.size (cc0_transform_2 i) (hinb0_2 i)).WholeWords (EltTy.packing .f32)

variable [Facts₀]

def dot_S1089x33_S33x2048_S1089x2048_1_0_0_1_n_n : DotDims S1089x33 S33x2048 S1089x2048 where
  lhsContracting := [1]
  rhsContracting := [0]
  lhsNonContracting := [0]
  rhsNonContracting := [1]
  lhsBatch := []
  rhsBatch := []
  wf := dot_S1089x33_S33x2048_S1089x2048_1_0_0_1_n_n_wf

abbrev win0_0 : Pipeline.Window sig grid0 :=
  Pipeline.Window.ofSpec (Memref.whole main_arg0) S1x3x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x33x33x33.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x1024x1024 : Shape := ⟨4, ![8, 3, 1024, 1024]⟩
abbrev S3x33x33x33 : Shape := ⟨4, ![3, 33, 33, 33]⟩
abbrev S_ : Shape := ⟨0, ![]⟩
abbrev S8x1x1024x1024 : Shape := ⟨4, ![8, 1, 1024, 1024]⟩
abbrev S8x1024x1024 : Shape := ⟨3, ![8, 1024, 1024]⟩
abbrev S3x35937 : Shape := ⟨2, ![3, 35937]⟩
abbrev S8x1024x1024x1 : Shape := ⟨4, ![8, 1024, 1024, 1]⟩
abbrev S3x8x1024x1024 : Shape := ⟨4, ![3, 8, 1024, 1024]⟩
abbrev S1x8x1024x1024 : Shape := ⟨4, ![1, 8, 1024, 1024]⟩

abbrev nBuf : Space → Nat
  | .hbm => 266
  | .vmem => 0
  | .smem => 0
  | _ => 0

abbrev hbmTy0_0 (i : Nat) : BufTy := match i % 128 with
  | 0 => ⟨S8x3x1024x1024, .f32⟩
  | 1 => ⟨S3x33x33x33, .f32⟩
  | 2 => ⟨S_, .f32⟩
  | 3 => ⟨S8x3x1024x1024, .f32⟩
  | 4 => ⟨S8x3x1024x1024, .f32⟩
  | 5 => ⟨S_, .f32⟩
  | 6 => ⟨S8x3x1024x1024, .f32⟩
  | 7 => ⟨S8x3x1024x1024, .f32⟩
  | 8 => ⟨S_, .f32⟩
  | 9 => ⟨S8x3x1024x1024, .f32⟩
  | 10 => ⟨S8x3x1024x1024, .f32⟩
  | 11 => ⟨S_, .f32⟩
  | 12 => ⟨S8x3x1024x1024, .f32⟩
  | 13 => ⟨S8x3x1024x1024, .f32⟩
  | 14 => ⟨S_, .f32⟩
  | 15 => ⟨S8x3x1024x1024, .f32⟩
  | 16 => ⟨S8x3x1024x1024, .f32⟩
  | 17 => ⟨S_, .f32⟩
  | 18 => ⟨S_, .i32⟩
  | 19 => ⟨S_, .f32⟩
  | 20 => ⟨S8x3x1024x1024, .f32⟩
  | 21 => ⟨S8x3x1024x1024, .f32⟩
  | 22 => ⟨S_, .f32⟩
  | 23 => ⟨S8x3x1024x1024, .f32⟩
  | 24 => ⟨S8x3x1024x1024, .f32⟩
  | 25 => ⟨S8x1x1024x1024, .f32⟩
  | 26 => ⟨S8x1024x1024, .f32⟩
  | 27 => ⟨S8x1x1024x1024, .f32⟩
  | 28 => ⟨S8x1024x1024, .f32⟩
  | 29 => ⟨S8x1x1024x1024, .f32⟩
  | 30 => ⟨S8x1024x1024, .f32⟩
  | 31 => ⟨S8x1024x1024, .f32⟩
  | 32 => ⟨S8x1024x1024, .f32⟩
  | 33 => ⟨S8x1024x1024, .i32⟩
  | 34 => ⟨S_, .i32⟩
  | 35 => ⟨S8x1024x1024, .i32⟩
  | 36 => ⟨S8x1024x1024, .i32⟩
  | 37 => ⟨S_, .i32⟩
  | 38 => ⟨S8x1024x1024, .i32⟩
  | 39 => ⟨S8x1024x1024, .i32⟩
  | 40 => ⟨S8x1024x1024, .f32⟩
  | 41 => ⟨S8x1024x1024, .f32⟩
  | 42 => ⟨S8x1024x1024, .i32⟩
  | 43 => ⟨S_, .i32⟩
  | 44 => ⟨S8x1024x1024, .i32⟩
  | 45 => ⟨S8x1024x1024, .i32⟩
  | 46 => ⟨S_, .i32⟩
  | 47 => ⟨S8x1024x1024, .i32⟩
  | 48 => ⟨S8x1024x1024, .i32⟩
  | 49 => ⟨S8x1024x1024, .f32⟩
  | 50 => ⟨S8x1024x1024, .f32⟩
  | 51 => ⟨S8x1024x1024, .i32⟩
  | 52 => ⟨S_, .i32⟩
  | 53 => ⟨S8x1024x1024, .i32⟩
  | 54 => ⟨S8x1024x1024, .i32⟩
  | 55 => ⟨S_, .i32⟩
  | 56 => ⟨S8x1024x1024, .i32⟩
  | 57 => ⟨S8x1024x1024, .i32⟩
  | 58 => ⟨S3x35937, .f32⟩
  | 59 => ⟨S_, .i32⟩
  | 60 => ⟨S8x1024x1024, .i32⟩
  | 61 => ⟨S8x1024x1024, .i32⟩
  | 62 => ⟨S8x1024x1024, .i32⟩
  | 63 => ⟨S_, .i32⟩
  | 64 => ⟨S8x1024x1024, .i32⟩
  | 65 => ⟨S8x1024x1024, .i32⟩
  | 66 => ⟨S8x1024x1024, .i32⟩
  | 67 => ⟨S_, .i32⟩
  | 68 => ⟨S8x1024x1024, .i32⟩
  | 69 => ⟨S8x1024x1024, .i1⟩
  | 70 => ⟨S_, .i32⟩
  | 71 => ⟨S8x1024x1024, .i32⟩
  | 72 => ⟨S8x1024x1024, .i32⟩
  | 73 => ⟨S8x1024x1024, .i32⟩
  | 74 => ⟨S8x1024x1024x1, .i32⟩
  | 75 => ⟨S3x8x1024x1024, .f32⟩
  | 76 => ⟨S_, .f32⟩
  | 77 => ⟨S8x1024x1024, .f32⟩
  | 78 => ⟨S8x1024x1024, .f32⟩
  | 79 => ⟨S1x8x1024x1024, .f32⟩
  | 80 => ⟨S3x8x1024x1024, .f32⟩
  | 81 => ⟨S3x8x1024x1024, .f32⟩
  | 82 => ⟨S_, .i32⟩
  | 83 => ⟨S8x1024x1024, .i32⟩
  | 84 => ⟨S8x1024x1024, .i32⟩
  | 85 => ⟨S8x1024x1024, .i32⟩
  | 86 => ⟨S_, .i32⟩
  | 87 => ⟨S8x1024x1024, .i32⟩
  | 88 => ⟨S8x1024x1024, .i32⟩
  | 89 => ⟨S8x1024x1024, .i32⟩
  | 90 => ⟨S_, .i32⟩
  | 91 => ⟨S8x1024x1024, .i32⟩
  | 92 => ⟨S8x1024x1024, .i1⟩
  | 93 => ⟨S_, .i32⟩
  | 94 => ⟨S8x1024x1024, .i32⟩
  | 95 => ⟨S8x1024x1024, .i32⟩
  | 96 => ⟨S8x1024x1024, .i32⟩
  | 97 => ⟨S8x1024x1024x1, .i32⟩
  | 98 => ⟨S3x8x1024x1024, .f32⟩
  | 99 => ⟨S1x8x1024x1024, .f32⟩
  | 100 => ⟨S3x8x1024x1024, .f32⟩
  | 101 => ⟨S3x8x1024x1024, .f32⟩
  | 102 => ⟨S3x8x1024x1024, .f32⟩
  | 103 => ⟨S_, .i32⟩
  | 104 => ⟨S8x1024x1024, .i32⟩
  | 105 => ⟨S8x1024x1024, .i32⟩
  | 106 => ⟨S8x1024x1024, .i32⟩
  | 107 => ⟨S_, .i32⟩
  | 108 => ⟨S8x1024x1024, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i1⟩
  | 114 => ⟨S_, .i32⟩
  | 115 => ⟨S8x1024x1024, .i32⟩
  | 116 => ⟨S8x1024x1024, .i32⟩
  | 117 => ⟨S8x1024x1024, .i32⟩
  | 118 => ⟨S8x1024x1024x1, .i32⟩
  | 119 => ⟨S3x8x1024x1024, .f32⟩
  | 120 => ⟨S_, .f32⟩
  | 121 => ⟨S8x1024x1024, .f32⟩
  | 122 => ⟨S8x1024x1024, .f32⟩
  | 123 => ⟨S1x8x1024x1024, .f32⟩
  | 124 => ⟨S3x8x1024x1024, .f32⟩
  | 125 => ⟨S3x8x1024x1024, .f32⟩
  | 126 => ⟨S_, .i32⟩
  | 127 => ⟨S8x1024x1024, .i32⟩
  | _ => ⟨S8x3x1024x1024, .f32⟩

abbrev hbmTy0_1 (i : Nat) : BufTy := match i % 128 with
  | 0 => ⟨S8x1024x1024, .i32⟩
  | 1 => ⟨S8x1024x1024, .i32⟩
  | 2 => ⟨S_, .i32⟩
  | 3 => ⟨S8x1024x1024, .i32⟩
  | 4 => ⟨S8x1024x1024, .i32⟩
  | 5 => ⟨S8x1024x1024, .i32⟩
  | 6 => ⟨S_, .i32⟩
  | 7 => ⟨S8x1024x1024, .i32⟩
  | 8 => ⟨S8x1024x1024, .i1⟩
  | 9 => ⟨S_, .i32⟩
  | 10 => ⟨S8x1024x1024, .i32⟩
  | 11 => ⟨S8x1024x1024, .i32⟩
  | 12 => ⟨S8x1024x1024, .i32⟩
  | 13 => ⟨S8x1024x1024x1, .i32⟩
  | 14 => ⟨S3x8x1024x1024, .f32⟩
  | 15 => ⟨S1x8x1024x1024, .f32⟩
  | 16 => ⟨S3x8x1024x1024, .f32⟩
  | 17 => ⟨S3x8x1024x1024, .f32⟩
  | 18 => ⟨S3x8x1024x1024, .f32⟩
  | 19 => ⟨S_, .i32⟩
  | 20 => ⟨S8x1024x1024, .i32⟩
  | 21 => ⟨S8x1024x1024, .i32⟩
  | 22 => ⟨S8x1024x1024, .i32⟩
  | 23 => ⟨S_, .i32⟩
  | 24 => ⟨S8x1024x1024, .i32⟩
  | 25 => ⟨S8x1024x1024, .i32⟩
  | 26 => ⟨S8x1024x1024, .i32⟩
  | 27 => ⟨S_, .i32⟩
  | 28 => ⟨S8x1024x1024, .i32⟩
  | 29 => ⟨S8x1024x1024, .i1⟩
  | 30 => ⟨S_, .i32⟩
  | 31 => ⟨S8x1024x1024, .i32⟩
  | 32 => ⟨S8x1024x1024, .i32⟩
  | 33 => ⟨S8x1024x1024, .i32⟩
  | 34 => ⟨S8x1024x1024x1, .i32⟩
  | 35 => ⟨S3x8x1024x1024, .f32⟩
  | 36 => ⟨S_, .f32⟩
  | 37 => ⟨S8x1024x1024, .f32⟩
  | 38 => ⟨S8x1024x1024, .f32⟩
  | 39 => ⟨S1x8x1024x1024, .f32⟩
  | 40 => ⟨S3x8x1024x1024, .f32⟩
  | 41 => ⟨S3x8x1024x1024, .f32⟩
  | 42 => ⟨S_, .i32⟩
  | 43 => ⟨S8x1024x1024, .i32⟩
  | 44 => ⟨S8x1024x1024, .i32⟩
  | 45 => ⟨S8x1024x1024, .i32⟩
  | 46 => ⟨S_, .i32⟩
  | 47 => ⟨S8x1024x1024, .i32⟩
  | 48 => ⟨S8x1024x1024, .i32⟩
  | 49 => ⟨S8x1024x1024, .i32⟩
  | 50 => ⟨S_, .i32⟩
  | 51 => ⟨S8x1024x1024, .i32⟩
  | 52 => ⟨S8x1024x1024, .i1⟩
  | 53 => ⟨S_, .i32⟩
  | 54 => ⟨S8x1024x1024, .i32⟩
  | 55 => ⟨S8x1024x1024, .i32⟩
  | 56 => ⟨S8x1024x1024, .i32⟩
  | 57 => ⟨S8x1024x1024x1, .i32⟩
  | 58 => ⟨S3x8x1024x1024, .f32⟩
  | 59 => ⟨S1x8x1024x1024, .f32⟩
  | 60 => ⟨S3x8x1024x1024, .f32⟩
  | 61 => ⟨S3x8x1024x1024, .f32⟩
  | 62 => ⟨S3x8x1024x1024, .f32⟩
  | 63 => ⟨S_, .i32⟩
  | 64 => ⟨S8x1024x1024, .i32⟩
  | 65 => ⟨S8x1024x1024, .i32⟩
  | 66 => ⟨S8x1024x1024, .i32⟩
  | 67 => ⟨S_, .i32⟩
  | 68 => ⟨S8x1024x1024, .i32⟩
  | 69 => ⟨S8x1024x1024, .i32⟩
  | 70 => ⟨S8x1024x1024, .i32⟩
  | 71 => ⟨S_, .i32⟩
  | 72 => ⟨S8x1024x1024, .i32⟩
  | 73 => ⟨S8x1024x1024, .i1⟩
  | 74 => ⟨S_, .i32⟩
  | 75 => ⟨S8x1024x1024, .i32⟩
  | 76 => ⟨S8x1024x1024, .i32⟩
  | 77 => ⟨S8x1024x1024, .i32⟩
  | 78 => ⟨S8x1024x1024x1, .i32⟩
  | 79 => ⟨S3x8x1024x1024, .f32⟩
  | 80 => ⟨S_, .f32⟩
  | 81 => ⟨S8x1024x1024, .f32⟩
  | 82 => ⟨S8x1024x1024, .f32⟩
  | 83 => ⟨S1x8x1024x1024, .f32⟩
  | 84 => ⟨S3x8x1024x1024, .f32⟩
  | 85 => ⟨S3x8x1024x1024, .f32⟩
  | 86 => ⟨S_, .i32⟩
  | 87 => ⟨S8x1024x1024, .i32⟩
  | 88 => ⟨S8x1024x1024, .i32⟩
  | 89 => ⟨S8x1024x1024, .i32⟩
  | 90 => ⟨S_, .i32⟩
  | 91 => ⟨S8x1024x1024, .i32⟩
  | 92 => ⟨S8x1024x1024, .i32⟩
  | 93 => ⟨S8x1024x1024, .i32⟩
  | 94 => ⟨S_, .i32⟩
  | 95 => ⟨S8x1024x1024, .i32⟩
  | 96 => ⟨S8x1024x1024, .i1⟩
  | 97 => ⟨S_, .i32⟩
  | 98 => ⟨S8x1024x1024, .i32⟩
  | 99 => ⟨S8x1024x1024, .i32⟩
  | 100 => ⟨S8x1024x1024, .i32⟩
  | 101 => ⟨S8x1024x1024x1, .i32⟩
  | 102 => ⟨S3x8x1024x1024, .f32⟩
  | 103 => ⟨S1x8x1024x1024, .f32⟩
  | 104 => ⟨S3x8x1024x1024, .f32⟩
  | 105 => ⟨S3x8x1024x1024, .f32⟩
  | 106 => ⟨S3x8x1024x1024, .f32⟩
  | 107 => ⟨S_, .f32⟩
  | 108 => ⟨S8x1024x1024, .f32⟩
  | 109 => ⟨S8x1024x1024, .f32⟩
  | 110 => ⟨S1x8x1024x1024, .f32⟩
  | 111 => ⟨S3x8x1024x1024, .f32⟩
  | 112 => ⟨S3x8x1024x1024, .f32⟩
  | 113 => ⟨S1x8x1024x1024, .f32⟩
  | 114 => ⟨S3x8x1024x1024, .f32⟩
  | 115 => ⟨S3x8x1024x1024, .f32⟩
  | 116 => ⟨S3x8x1024x1024, .f32⟩
  | 117 => ⟨S_, .f32⟩
  | 118 => ⟨S8x1024x1024, .f32⟩
  | 119 => ⟨S8x1024x1024, .f32⟩
  | 120 => ⟨S1x8x1024x1024, .f32⟩
  | 121 => ⟨S3x8x1024x1024, .f32⟩
  | 122 => ⟨S3x8x1024x1024, .f32⟩
  | 123 => ⟨S_, .f32⟩
  | 124 => ⟨S8x1024x1024, .f32⟩
  | 125 => ⟨S8x1024x1024, .f32⟩
  | 126 => ⟨S1x8x1024x1024, .f32⟩
  | 127 => ⟨S3x8x1024x1024, .f32⟩
  | _ => ⟨S8x3x1024x1024, .f32⟩

abbrev hbmTy0_2 (i : Nat) : BufTy := match i % 128 with
  | 0 => ⟨S3x8x1024x1024, .f32⟩
  | 1 => ⟨S1x8x1024x1024, .f32⟩
  | 2 => ⟨S3x8x1024x1024, .f32⟩
  | 3 => ⟨S3x8x1024x1024, .f32⟩
  | 4 => ⟨S3x8x1024x1024, .f32⟩
  | 5 => ⟨S1x8x1024x1024, .f32⟩
  | 6 => ⟨S3x8x1024x1024, .f32⟩
  | 7 => ⟨S3x8x1024x1024, .f32⟩
  | 8 => ⟨S3x8x1024x1024, .f32⟩
  | 9 => ⟨S8x3x1024x1024, .f32⟩
  | _ => ⟨S8x3x1024x1024, .f32⟩

abbrev hbmTy (i : Nat) : BufTy := match i / 128 with
  | 0 => hbmTy0_0 i
  | 1 => hbmTy0_1 i
  | 2 => hbmTy0_2 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_c_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_13 : Ref sig .tc := ⟨.hbm, 67, rfl⟩
abbrev main_v45 : Ref sig .tc := ⟨.hbm, 68, rfl⟩
abbrev main_v46 : Ref sig .tc := ⟨.hbm, 69, rfl⟩
abbrev main_c_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_18 : Ref sig .tc := ⟨.hbm, 90, rfl⟩
abbrev main_v63 : Ref sig .tc := ⟨.hbm, 91, rfl⟩
abbrev main_v64 : Ref sig .tc := ⟨.hbm, 92, rfl⟩
abbrev main_c_19 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_20 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_21 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_22 : Ref sig .tc := ⟨.hbm, 111, rfl⟩
abbrev main_v80 : Ref sig .tc := ⟨.hbm, 112, rfl⟩
abbrev main_v81 : Ref sig .tc := ⟨.hbm, 113, rfl⟩
abbrev main_c_23 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_25 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_26 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_27 : Ref sig .tc := ⟨.hbm, 134, rfl⟩
abbrev main_v98 : Ref sig .tc := ⟨.hbm, 135, rfl⟩
abbrev main_v99 : Ref sig .tc := ⟨.hbm, 136, rfl⟩
abbrev main_c_28 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_29 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_30 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_31 : Ref sig .tc := ⟨.hbm, 155, rfl⟩
abbrev main_v115 : Ref sig .tc := ⟨.hbm, 156, rfl⟩
abbrev main_v116 : Ref sig .tc := ⟨.hbm, 157, rfl⟩
abbrev main_c_32 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_33 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_34 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_c_35 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_36 : Ref sig .tc := ⟨.hbm, 178, rfl⟩
abbrev main_v133 : Ref sig .tc := ⟨.hbm, 179, rfl⟩
abbrev main_v134 : Ref sig .tc := ⟨.hbm, 180, rfl⟩
abbrev main_c_37 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_c_38 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_c_39 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_40 : Ref sig .tc := ⟨.hbm, 199, rfl⟩
abbrev main_v150 : Ref sig .tc := ⟨.hbm, 200, rfl⟩
abbrev main_v151 : Ref sig .tc := ⟨.hbm, 201, rfl⟩
abbrev main_c_41 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_42 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_43 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_c_44 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_c_45 : Ref sig .tc := ⟨.hbm, 222, rfl⟩
abbrev main_v168 : Ref sig .tc := ⟨.hbm, 223, rfl⟩
abbrev main_v169 : Ref sig .tc := ⟨.hbm, 224, rfl⟩
abbrev main_c_46 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_47 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_cst_48 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_cst_49 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩

abbrev nD : Nat := 1
abbrev τ : Topo := Topo.v7x

variable {F : FTy → Type} [FloatOps F]

class Facts₀ : Prop where
  bcast_S_S8x3x1024x1024 : S_.BroadcastsInDim S8x3x1024x1024 (![] : Fin 0 → Fin S8x3x1024x1024.rank)
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  shapeCasts_S3x33x33x33_S3x35937 : S3x33x33x33.ShapeCasts S3x35937
  bcast_S8x1024x1024_S8x1024x1024x1_0_1_2 : S8x1024x1024.BroadcastsInDim S8x1024x1024x1 (![0, 1, 2] : Fin 3 → Fin S8x1024x1024x1.rank)
  bcast_S8x1024x1024_S1x8x1024x1024_1_2_3 : S8x1024x1024.BroadcastsInDim S1x8x1024x1024 (![1, 2, 3] : Fin 3 → Fin S1x8x1024x1024.rank)
  bcast_S1x8x1024x1024_S3x8x1024x1024_0_1_2_3 : S1x8x1024x1024.BroadcastsInDim S3x8x1024x1024 (![0, 1, 2, 3] : Fin 4 → Fin S3x8x1024x1024.rank)
  transposes_S3x8x1024x1024_S8x3x1024x1024_1_0_2_3 : S3x8x1024x1024.Transposes [1, 0, 2, 3] S8x3x1024x1024
  gather_S3x35937_S8x1024x1024x1_S3x8x1024x1024_0_1_n_n_1_3_31_wf : GatherDims.WF S3x35937 S8x1024x1024x1 S3x8x1024x1024 [0] [1] [] [1] [] 3 ![3, 1]

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

class Facts : Prop extends Facts₀ where

variable [Facts]
-- ==== Proof.Spec.lean ====
/-
  Trilinear interpolation in a 33×33×33 lattice, as two per-pixel functions on the extended reals.

  A colour (xr, xg, xb) is sent to lattice coordinates t = clamp(32·x, 0, 32) on each axis; on an axis the
  coordinate has a lower node ⌊t⌋, an upper node min(⌊t⌋ + 1, 32) and a fractional part w = t − ⌊t⌋.

  `pixel` is the separable form: on each axis the HAT weights of the 33 nodes — (1 − w) on the lower node plus w on
  the upper node, zero elsewhere — are contracted against the table, innermost axis first.
  `refPixel` is the eight-corner form: the table is read at the eight corners of the cell, through a flat index
  (i·33 + j)·33 + k, and blended along the innermost axis, then the middle one, then the outermost.
  Both are written with the very scalar operations the two programs apply, so that each program's result at an
  index IS one of them by unfolding; that the two agree on finite data is mathematics (a later module).
-/
import Idealize.ShloMosaic.PureOps.Ideal
import Idealize.ShloMosaic.PureOps.Ideal.Laws
import Idealize.ShloMosaic.Lib.ValueIdx

noncomputable section

namespace Cert.Lut

open Idealize.ShloMosaic Idealize.ShloMosaic.ValueIdx

/-- The float patterns the two programs use: 0, 1/2, 1, 2 and 32. -/
abbrev c0 : EReal := Ideal.ofBits .f32 0x00000000#32
abbrev cHalf : EReal := Ideal.ofBits .f32 0x3F000000#32
abbrev c1 : EReal := Ideal.ofBits .f32 0x3F800000#32
abbrev c2 : EReal := Ideal.ofBits .f32 0x40000000#32
abbrev c32 : EReal := Ideal.ofBits .f32 0x42000000#32

/-! ## One axis -/

/-- The lattice coordinate of a colour value: 32·x clamped to [0, 32]. -/
def coord (x : EReal) : EReal := min c32 (max c0 (x * c32))

/-- The same coordinate the long way round: ((x − ½)·2 + 1)·½·32, clamped to [0, 32] (the upper end an integer
    converted to a float). -/
def coordR (x : EReal) : EReal :=
  min (((32#32 : BitVec 32).toInt : ℝ) : EReal) (max c0 ((((x - cHalf) * c2 + c1) * cHalf) * c32))

/-- The lower node's position, as a float and as an integer word; the upper node; the fractional part. -/
def flo (t : EReal) : EReal := Ideal.liftRound Int.floor t
def lo (t : EReal) : BitVec 32 := Ideal.fptosi 32 (flo t)
def hi (t : EReal) : BitVec 32 := IntOp.minsi (IntOp.addi (lo t) 1#32) 32#32
def frac (t : EReal) : EReal := t - flo t

/-- The hat weight of node `k` for the coordinate `t`: 1 − w on the lower node plus w on the upper node. -/
def hat (t : EReal) (k : Nat) : EReal :=
  Scalar.select (IntOp.cmpi .eq (BitVec.ofNat 32 k) (lo t)) (c1 - frac t) c0
    + Scalar.select (IntOp.cmpi .eq (BitVec.ofNat 32 k) (hi t)) (frac t) c0

/-! ## The separable form -/

/-- A table contracted with the three axes' hat weights, innermost axis (red) first. -/
def pixel (xr xg xb : EReal) (L : Fin 33 → Fin 33 → Fin 33 → EReal) : EReal :=
  ∑ a : Fin 33, (∑ b : Fin 33, (∑ k : Fin 33, L a b k * hat (coord xr) k.val) * hat (coord xg) b.val) * hat (coord xb) a.val

/-! ## The eight-corner form -/

/-- The table read at a flat position n = (i·33 + j)·33 + k. -/
def tab (L : Fin 33 → Fin 33 → Fin 33 → EReal) (n : Fin 35937) : EReal :=
  L ⟨n.val / 1089, by omega⟩ ⟨n.val / 33 % 33, Nat.mod_lt _ (by norm_num)⟩ ⟨n.val % 33, Nat.mod_lt _ (by norm_num)⟩

/-- The flat position of a corner, in 32-bit words. -/
def flat (i j k : BitVec 32) : BitVec 32 :=
  IntOp.addi (IntOp.muli (IntOp.addi (IntOp.muli i 33#32) j) 33#32) k

/-- A negative position counts from the end. -/
def wrap (n : BitVec 32) : BitVec 32 :=
  Scalar.select (IntOp.cmpi .slt n 0#32) (IntOp.addi n 35937#32) n

/-- The table at a corner: the wrapped position read signed and clamped into the table. -/
def corner (L : Fin 33 → Fin 33 → Fin 33 → EReal) (i j k : BitVec 32) : EReal :=
  tab L ⟨min (wrap (flat i j k)).toInt.toNat 35936, by omega⟩

/-- The eight corners blended along red, then green, then blue. -/
def refPixel (xr xg xb : EReal) (L : Fin 33 → Fin 33 → Fin 33 → EReal) : EReal :=
  let tk := coordR xr; let tj := coordR xg; let ti := coordR xb
  let c00 := corner L (lo ti) (lo tj) (lo tk) * (c1 - frac tk) + corner L (lo ti) (lo tj) (hi tk) * frac tk
  let c01 := corner L (lo ti) (hi tj) (lo tk) * (c1 - frac tk) + corner L (lo ti) (hi tj) (hi tk) * frac tk
  let c10 := corner L (hi ti) (lo tj) (lo tk) * (c1 - frac tk) + corner L (hi ti) (lo tj) (hi tk) * frac tk
  let c11 := corner L (hi ti) (hi tj) (lo tk) * (c1 - frac tk) + corner L (hi ti) (hi tj) (hi tk) * frac tk
  (c00 * (c1 - frac tj) + c01 * frac tj) * (c1 - frac ti) + (c10 * (c1 - frac tj) + c11 * frac tj) * frac ti

/-! ## The whole array -/

/-- The transformed image: pixel (b, ·, h, w) of the input through channel c of the table. -/
def G (x : (⟨4, ![8, 3, 1024, 1024]⟩ : Shape).Idx → EReal) (L : (⟨4, ![3, 33, 33, 33]⟩ : Shape).Idx → EReal) :
    (⟨4, ![8, 3, 1024, 1024]⟩ : Shape).Idx → EReal :=
  fun i => pixel (x (ix4 (i 0) 0 (i 2) (i 3))) (x (ix4 (i 0) 1 (i 2) (i 3))) (x (ix4 (i 0) 2 (i 2) (i 3)))
    (fun a b k => L (ix4 (i 1) a b k))

end Cert.Lut

end
-- ==== Proof.Blend.lean ====
/-
  One axis of the lattice on a finite colour value: the coordinate is a real in [0, 32], the two forms of the coordinate
  agree, the lower and upper nodes are numbers below 33 and the fractional part is a real.
-/
import proofs.«110537_j28467043237891_1_alg».proof.Proof.Spec

noncomputable section

namespace Cert.Lut

open Idealize.ShloMosaic

/-! ## The float patterns as reals -/

theorem c0_eq : c0 = ((0 : ℝ) : EReal) := by
  simp [c0, Ideal.ofBits, Ideal.ieee]
theorem cHalf_eq : cHalf = ((1 / 2 : ℝ) : EReal) := by
  simp [cHalf, Ideal.ofBits, Ideal.ieee, -EReal.coe_mul]; norm_num
theorem c1_eq : c1 = ((1 : ℝ) : EReal) := by
  simp [c1, Ideal.ofBits, Ideal.ieee, -EReal.coe_mul]; norm_num
theorem c2_eq : c2 = ((2 : ℝ) : EReal) := by
  simp [c2, Ideal.ofBits, Ideal.ieee, -EReal.coe_mul]; norm_num
theorem c32_eq : c32 = ((32 : ℝ) : EReal) := by
  simp [c32, Ideal.ofBits, Ideal.ieee, -EReal.coe_mul]; norm_num

/-! ## The coordinate of a real -/

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- 32·r clamped to [0, 32]. -/
def clamp32 (r : ℝ) : ℝ := min 32 (max 0 (r * 32))

theorem clamp32_nonneg (r : ℝ) : 0 ≤ clamp32 r := le_min (by norm_num) (le_max_left _ _)
theorem clamp32_le (r : ℝ) : clamp32 r ≤ 32 := min_le_left _ _

theorem coord_coe (r : ℝ) : coord (r : EReal) = ((clamp32 r : ℝ) : EReal) := by
  unfold coord clamp32
  rw [c32_eq, c0_eq, ← EReal.coe_mul, ← coe_max', ← coe_min']

/-- The long way round is the same number: ((r − ½)·2 + 1)·½·32 = 32·r. -/
theorem coordR_coe (r : ℝ) : coordR (r : EReal) = ((clamp32 r : ℝ) : EReal) := by
  unfold coordR clamp32
  have h32 : (((32#32 : BitVec 32).toInt : ℝ) : EReal) = ((32 : ℝ) : EReal) := by
    have : (32#32 : BitVec 32).toInt = 32 := by decide
    rw [this]; norm_num
  rw [h32, c32_eq, c0_eq, cHalf_eq, c1_eq, c2_eq, ← EReal.coe_sub, ← EReal.coe_mul, ← EReal.coe_add, ← EReal.coe_mul,
    ← EReal.coe_mul, ← coe_max', ← coe_min']
  congr 3
  ring

theorem coordR_eq_coord (r : ℝ) : coordR (r : EReal) = coord (r : EReal) := by
  rw [coordR_coe, coord_coe]

/-! ## The nodes and the fraction of a real coordinate in [0, 32] -/

theorem flo_coe (t : ℝ) : flo (t : EReal) = (((⌊t⌋ : ℤ) : ℝ) : EReal) := rfl

theorem frac_coe (t : ℝ) : frac (t : EReal) = ((t - (⌊t⌋ : ℤ) : ℝ) : EReal) := by
  unfold frac; rw [flo_coe, ← EReal.coe_sub]

/-- The lower node of a coordinate in [0, 32] is the number ⌊t⌋, below 33. -/
theorem lo_coe (t : ℝ) (h0 : 0 ≤ t) (h32 : t ≤ 32) : lo (t : EReal) = BitVec.ofNat 32 ⌊t⌋.toNat ∧ ⌊t⌋.toNat < 33 := by
  have hf0 : (0 : ℤ) ≤ ⌊t⌋ := Int.floor_nonneg.mpr h0
  have hf32 : ⌊t⌋ ≤ 32 := by
    have : ⌊t⌋ ≤ ⌊(32 : ℝ)⌋ := Int.floor_le_floor h32
    simpa using this
  refine ⟨?_, by omega⟩
  unfold lo
  rw [flo_coe, Ideal.fptosi, Ideal.toIntClamped_coe]
  have hnn : (0 : ℝ) ≤ ((⌊t⌋ : ℤ) : ℝ) := by exact_mod_cast hf0
  rw [if_pos hnn, Int.floor_intCast]
  have : max (-((2 ^ (32 - 1) : ℕ) : ℤ)) (min (((2 ^ (32 - 1) : ℕ) : ℤ) - 1) ⌊t⌋) = ⌊t⌋ := by
    norm_num; omega
  rw [this]
  have : ⌊t⌋ = ((⌊t⌋.toNat : ℕ) : ℤ) := (Int.toNat_of_nonneg hf0).symm
  conv_lhs => rw [this]
  exact BitVec.ofInt_natCast _ _

/-- The upper node of a lower node below 33. -/
theorem hi_of_lo (n : Fin 33) : IntOp.minsi (IntOp.addi (BitVec.ofNat 32 n.val) 1#32) 32#32 = BitVec.ofNat 32 (min (n.val + 1) 32) := by
  revert n; decide

theorem hi_coe (t : ℝ) (h0 : 0 ≤ t) (h32 : t ≤ 32) : hi (t : EReal) = BitVec.ofNat 32 (min (⌊t⌋.toNat + 1) 32) := by
  obtain ⟨hl, hlt⟩ := lo_coe t h0 h32
  unfold hi; rw [hl]
  exact hi_of_lo ⟨_, hlt⟩

/-! ## The hat weights of a real coordinate -/

/-- Two numbers below 33 compared as 32-bit words. -/
theorem cmpi_eq_ofNat (k n : Fin 33) :
    IntOp.cmpi .eq (BitVec.ofNat 32 k.val) (BitVec.ofNat 32 n.val) = if k = n then 1#1 else 0#1 := by
  revert k n; decide

theorem coe_sum' {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The lower node, the upper node and the fraction of a real coordinate. -/
def nodeLo (t : ℝ) : ℕ := ⌊t⌋.toNat
def nodeHi (t : ℝ) : ℕ := min (⌊t⌋.toNat + 1) 32
def wgt (t : ℝ) : ℝ := t - (⌊t⌋ : ℤ)

theorem nodeHi_lt (t : ℝ) : nodeHi t < 33 := by unfold nodeHi; omega
theorem nodeLo_lt (t : ℝ) (h0 : 0 ≤ t) (h32 : t ≤ 32) : nodeLo t < 33 := (lo_coe t h0 h32).2
theorem lo_eq (t : ℝ) (h0 : 0 ≤ t) (h32 : t ≤ 32) : lo (t : EReal) = BitVec.ofNat 32 (nodeLo t) := (lo_coe t h0 h32).1
theorem hi_eq (t : ℝ) (h0 : 0 ≤ t) (h32 : t ≤ 32) : hi (t : EReal) = BitVec.ofNat 32 (nodeHi t) := hi_coe t h0 h32
theorem frac_eq (t : ℝ) : frac (t : EReal) = ((wgt t : ℝ) : EReal) := frac_coe t

/-- The hat weight of node k: 1 − w on the lower node plus w on the upper node (both, if they coincide). -/
theorem hat_coe (t : ℝ) (h0 : 0 ≤ t) (h32 : t ≤ 32) (k : Fin 33) :
    hat (t : EReal) k.val
      = (((if k.val = nodeLo t then 1 - wgt t else 0) + (if k.val = nodeHi t then wgt t else 0) : ℝ) : EReal) := by
  obtain ⟨hl, hlt⟩ := lo_coe t h0 h32
  unfold hat
  rw [hl, hi_coe t h0 h32, frac_coe, c1_eq, c0_eq, ← EReal.coe_sub]
  have e1 := cmpi_eq_ofNat k ⟨⌊t⌋.toNat, hlt⟩
  have e2 := cmpi_eq_ofNat k ⟨min (⌊t⌋.toNat + 1) 32, nodeHi_lt t⟩
  simp only [] at e1 e2
  rw [e1, e2, EReal.coe_add]
  unfold Scalar.select nodeLo nodeHi wgt
  congr 1
  · by_cases h : k.val = ⌊t⌋.toNat
    · rw [if_pos (Fin.ext h), if_pos (by decide : (1#1 : BitVec 1) = 1), if_pos h]
    · rw [if_neg (fun e => h (congrArg Fin.val e)), if_neg (by decide : ¬ (0#1 : BitVec 1) = 1), if_neg h]
  · by_cases h : k.val = min (⌊t⌋.toNat + 1) 32
    · rw [if_pos (Fin.ext h), if_pos (by decide : (1#1 : BitVec 1) = 1), if_pos h]
    · rw [if_neg (fun e => h (congrArg Fin.val e)), if_neg (by decide : ¬ (0#1 : BitVec 1) = 1), if_neg h]

/-- A real row contracted with the hat weights of a coordinate: the blend of its two nodes. -/
theorem hat_sum (t : ℝ) (h0 : 0 ≤ t) (h32 : t ≤ 32) (f : Fin 33 → ℝ) :
    ∑ k : Fin 33, (f k : EReal) * hat (t : EReal) k.val
      = ((f ⟨nodeLo t, nodeLo_lt t h0 h32⟩ * (1 - wgt t) + f ⟨nodeHi t, nodeHi_lt t⟩ * wgt t : ℝ) : EReal) := by
  have : ∀ k : Fin 33, (f k : EReal) * hat (t : EReal) k.val
      = ((f k * ((if k.val = nodeLo t then 1 - wgt t else 0) + (if k.val = nodeHi t then wgt t else 0)) : ℝ) : EReal) := by
    intro k; rw [hat_coe t h0 h32 k, EReal.coe_mul]
  rw [Finset.sum_congr rfl (fun k _ => this k), ← coe_sum']
  congr 1
  simp only [mul_add, mul_ite, mul_zero, Finset.sum_add_distrib]
  congr 1
  · rw [Finset.sum_eq_single (⟨nodeLo t, nodeLo_lt t h0 h32⟩ : Fin 33)]
    · simp
    · intro b _ hb; rw [if_neg (fun e => hb (Fin.ext e))]
    · intro h; exact absurd (Finset.mem_univ _) h
  · rw [Finset.sum_eq_single (⟨nodeHi t, nodeHi_lt t⟩ : Fin 33)]
    · simp
    · intro b _ hb; rw [if_neg (fun e => hb (Fin.ext e))]
    · intro h; exact absurd (Finset.mem_univ _) h

/-! ## The corners -/

theorem toInt_small (N : ℕ) (h : N < 35937) : (BitVec.ofNat 32 N).toInt = (N : ℤ) := by
  have hN : (BitVec.ofNat 32 N).toNat = N := by rw [BitVec.toNat_ofNat]; exact Nat.mod_eq_of_lt (by omega)
  rw [BitVec.toInt_eq_toNat_of_lt (by rw [hN]; omega), hN]

/-- The flat position of nodes below 33 is the number (i·33 + j)·33 + k. -/
theorem flat_ofNat (i j k : Fin 33) :
    flat (BitVec.ofNat 32 i.val) (BitVec.ofNat 32 j.val) (BitVec.ofNat 32 k.val)
      = BitVec.ofNat 32 ((i.val * 33 + j.val) * 33 + k.val) := by
  unfold flat IntOp.addi IntOp.muli
  apply BitVec.eq_of_toNat_eq
  have hi := i.isLt; have hj := j.isLt; have hk := k.isLt
  simp only [BitVec.toNat_add, BitVec.toNat_mul, BitVec.toNat_ofNat]
  omega

/-- A position inside the table is not wrapped. -/
theorem wrap_ofNat (N : ℕ) (h : N < 35937) : wrap (BitVec.ofNat 32 N) = BitVec.ofNat 32 N := by
  unfold wrap IntOp.cmpi
  have : (BitVec.ofNat 32 N).slt 0#32 = false := by
    rw [BitVec.slt_eq_decide, toInt_small N h]
    have : (0#32 : BitVec 32).toInt = 0 := by decide
    rw [this]; exact decide_eq_false (by omega)
  simp only [this]
  exact if_neg (by decide)

/-- The table at a corner whose nodes are below 33 is the table's entry there. -/
theorem corner_ofNat (L : Fin 33 → Fin 33 → Fin 33 → EReal) (i j k : Fin 33) :
    corner L (BitVec.ofNat 32 i.val) (BitVec.ofNat 32 j.val) (BitVec.ofNat 32 k.val) = L i j k := by
  have hi := i.isLt; have hj := j.isLt; have hk := k.isLt
  have hN : (i.val * 33 + j.val) * 33 + k.val < 35937 := by omega
  unfold corner tab
  have e : min (wrap (flat (BitVec.ofNat 32 i.val) (BitVec.ofNat 32 j.val) (BitVec.ofNat 32 k.val))).toInt.toNat 35936
      = (i.val * 33 + j.val) * 33 + k.val := by
    rw [flat_ofNat, wrap_ofNat _ hN, toInt_small _ hN, Int.toNat_natCast]; omega
  congr 1
  · apply Fin.ext; show min _ 35936 / 1089 = i.val; rw [e]; omega
  · apply Fin.ext; show min _ 35936 / 33 % 33 = j.val; rw [e]; omega
  · apply Fin.ext; show min _ 35936 % 33 = k.val; rw [e]; omega

theorem corner_nat (L : Fin 33 → Fin 33 → Fin 33 → EReal) (i j k : ℕ) (hi : i < 33) (hj : j < 33) (hk : k < 33) :
    corner L (BitVec.ofNat 32 i) (BitVec.ofNat 32 j) (BitVec.ofNat 32 k) = L ⟨i, hi⟩ ⟨j, hj⟩ ⟨k, hk⟩ :=
  corner_ofNat L ⟨i, hi⟩ ⟨j, hj⟩ ⟨k, hk⟩

/-! ## The two forms agree on finite data -/

/-- On a finite colour and a finite table the eight-corner blend IS the separable contraction: each axis's hat weights
    pick the cell's two nodes with weights 1 − w and w, so contracting the innermost axis leaves the blend along red of the
    table's rows, contracting the next the blend along green of those, and the last the blend along blue. -/
theorem refPixel_eq_pixel (xr xg xb : ℝ) (ℓ : Fin 33 → Fin 33 → Fin 33 → ℝ) :
    refPixel (xr : EReal) (xg : EReal) (xb : EReal) (fun a b k => (ℓ a b k : EReal))
      = pixel (xr : EReal) (xg : EReal) (xb : EReal) (fun a b k => (ℓ a b k : EReal)) := by
  have hk0 := clamp32_nonneg xr; have hk32 := clamp32_le xr
  have hj0 := clamp32_nonneg xg; have hj32 := clamp32_le xg
  have hi0 := clamp32_nonneg xb; have hi32 := clamp32_le xb
  unfold refPixel pixel
  simp only [coordR_coe, coord_coe]
  -- the separable side, innermost axis first
  have inner : ∀ a b : Fin 33, ∑ k : Fin 33, ((ℓ a b k : ℝ) : EReal) * hat ((clamp32 xr : ℝ) : EReal) k.val = _ :=
    fun a b => hat_sum (clamp32 xr) hk0 hk32 (fun k => ℓ a b k)
  simp only [inner]
  have middle : ∀ a : Fin 33, ∑ b : Fin 33, ((_ : ℝ) : EReal) * hat ((clamp32 xg : ℝ) : EReal) b.val = _ :=
    fun a => hat_sum (clamp32 xg) hj0 hj32
      (fun b => ℓ a b ⟨nodeLo (clamp32 xr), nodeLo_lt _ hk0 hk32⟩ * (1 - wgt (clamp32 xr))
        + ℓ a b ⟨nodeHi (clamp32 xr), nodeHi_lt _⟩ * wgt (clamp32 xr))
  simp only [middle]
  rw [hat_sum (clamp32 xb) hi0 hi32]
  -- the eight-corner side
  rw [lo_eq _ hk0 hk32, lo_eq _ hj0 hj32, lo_eq _ hi0 hi32, hi_eq _ hk0 hk32, hi_eq _ hj0 hj32, hi_eq _ hi0 hi32,
    frac_eq, frac_eq, frac_eq, c1_eq]
  simp only [corner_nat _ _ _ _ (nodeLo_lt _ hi0 hi32) (nodeLo_lt _ hj0 hj32) (nodeLo_lt _ hk0 hk32),
    corner_nat _ _ _ _ (nodeLo_lt _ hi0 hi32) (nodeLo_lt _ hj0 hj32) (nodeHi_lt (clamp32 xr)),
    corner_nat _ _ _ _ (nodeLo_lt _ hi0 hi32) (nodeHi_lt (clamp32 xg)) (nodeLo_lt _ hk0 hk32),
    corner_nat _ _ _ _ (nodeLo_lt _ hi0 hi32) (nodeHi_lt (clamp32 xg)) (nodeHi_lt (clamp32 xr)),
    corner_nat _ _ _ _ (nodeHi_lt (clamp32 xb)) (nodeLo_lt _ hj0 hj32) (nodeLo_lt _ hk0 hk32),
    corner_nat _ _ _ _ (nodeHi_lt (clamp32 xb)) (nodeLo_lt _ hj0 hj32) (nodeHi_lt (clamp32 xr)),
    corner_nat _ _ _ _ (nodeHi_lt (clamp32 xb)) (nodeHi_lt (clamp32 xg)) (nodeLo_lt _ hk0 hk32),
    corner_nat _ _ _ _ (nodeHi_lt (clamp32 xb)) (nodeHi_lt (clamp32 xg)) (nodeHi_lt (clamp32 xr))]
  simp only [← EReal.coe_sub, ← EReal.coe_mul, ← EReal.coe_add]

end Cert.Lut

end
-- ==== Proof.Finite.lean ====
/-
  The precondition read: when `finite_inputs` holds of the two argument arrays, every entry of the image and of the
  table is a real number (its absolute value is below +∞, which rules out both infinities).
-/
import proofs.«110537_j28467043237891_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Lut

open Idealize.ShloMosaic Cert.Pre_finite_inputs

instance : Subsingleton S_.Idx := ⟨fun a b => funext fun d => d.elim0⟩

/-- An extended real whose absolute value compares below the pattern of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

variable [Facts]

/-- Under the precondition every entry of both arrays is a real. -/
theorem finite_of_pre (x : FVec Ideal S8x3x1024x1024 .f32) (L : FVec Ideal S3x33x33x33 .f32)
    (h : fn (F := Ideal) x L = fun _ => 1#1) :
    (∀ i, ∃ r : ℝ, x i = (r : EReal)) ∧ (∀ i, ∃ r : ℝ, L i = (r : EReal)) := by
  have h0 := congrFun h ValueIdx.ix0
  dsimp only [fn] at h0
  obtain ⟨hx, hL⟩ := IntOp.andi_eq_one.mp h0
  refine ⟨fun i => real_of_abs_lt _ ?_, fun i => real_of_abs_lt _ ?_⟩
  · exact Host.reduce_andi_all _ _ _ _ _ hx i
  · exact Host.reduce_andi_all _ _ _ _ _ hL i

end Cert.Lut

end
-- ==== Proof.KernelPixel.lean ====
/-
  The kernel body's result block, read at an index: entry (0, c, p, q) of the block the body stores is the separable
  form `pixel` of the input block's three colour values at (p, q) and channel c of the table.
-/
import proofs.«110537_j28467043237891_1_alg».proof.Proof.Gen.KernelIdeal.Frame
import proofs.«110537_j28467043237891_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Lut

open Idealize.ShloMosaic Idealize.ShloMosaic.ValueIdx Cert.KernelIdeal Cert.KernelIdeal.Gen

/-! The steps: the lanes and the layout casts; one axis's coordinate, nodes and fraction; the hat weights as arrays; the
    product with the red weights and the two sums; the three plane stores. -/
namespace KernelPixel

/-! ## Lanes: the 16×128 block laid out as one row of 2048 -/

/-- The lane of pixel (p, q): p·128 + q. -/
def lane (p : Fin 16) (q : Fin 128) : Fin 2048 := ⟨p.val * 128 + q.val, by omega⟩

/-- A [16,128] block cast to [1,2048] reads, at lane p·128 + q, the block at (p, q). -/
theorem cast_row_apply {α : Type} (v : S16x128.Idx → α) (p : Fin 16) (q : Fin 128) :
    shapeCast S1x2048 v shapeCasts_S16x128_S1x2048 (ix2 (0 : Fin 1) (lane p q)) = v (ix2 p q) :=
  shapeCast_apply v _ _ _ (by
    rw [Shape.rowMajor_val_two, Shape.rowMajor_val_two]
    show p.val * 128 + q.val = 0 * 2048 + (p.val * 128 + q.val)
    omega)

/-- A [1,1,16,128] block cast to [16,128] reads, at (p, q), the block at (0, 0, p, q). -/
theorem cast_block_apply {α : Type} (v : S1x1x16x128.Idx → α) (p : Fin 16) (q : Fin 128) :
    shapeCast S16x128 v shapeCasts_S1x1x16x128_S16x128 (ix2 p q) = v (ix4 (0 : Fin 1) (0 : Fin 1) p q) :=
  shapeCast_apply v _ _ _ (by
    rw [Shape.rowMajor_val_four, Shape.rowMajor_val_two]
    show ((0 * 1 + 0) * 16 + p.val) * 128 + q.val = p.val * 128 + q.val
    omega)

/-! ## One axis: coordinate, nodes and fraction of a colour block -/

/-- The clamped coordinate of the first kind of colour block (scaled and clamped in one payload). -/
theorem pay3_apply (v : Vec Ideal S1x1x16x128 .f32) (p : Fin 16) (q : Fin 128) :
    k0_pay3 v (ix2 p q) = coord (v (ix4 (0 : Fin 1) (0 : Fin 1) p q)) := by
  unfold k0_pay3
  show min _ (max _ (shapeCast S16x128 v shapeCasts_S1x1x16x128_S16x128 (ix2 p q) * _)) = _
  rw [cast_block_apply]
  rfl

theorem pay5_apply (v : Vec Ideal S1x1x16x128 .f32) (p : Fin 16) (q : Fin 128) :
    k0_pay5 v (ix2 p q) = frac (coord (v (ix4 (0 : Fin 1) (0 : Fin 1) p q))) := by
  unfold k0_pay5 k0_pay4
  show k0_pay3 v (ix2 p q) - Ideal.liftRound Int.floor (k0_pay3 v (ix2 p q)) = _
  rw [pay3_apply]
  rfl

theorem pay6_apply (v : Vec Ideal S1x1x16x128 .f32) (p : Fin 16) (q : Fin 128) :
    k0_pay6 v (ix2 p q) = lo (coord (v (ix4 (0 : Fin 1) (0 : Fin 1) p q))) := by
  unfold k0_pay6 k0_pay4
  show Ideal.fptosi 32 (Ideal.liftRound Int.floor (k0_pay3 v (ix2 p q))) = _
  rw [pay3_apply]
  rfl

theorem pay7_apply (v : Vec Ideal S1x1x16x128 .f32) (p : Fin 16) (q : Fin 128) :
    k0_pay7 v (ix2 p q) = hi (coord (v (ix4 (0 : Fin 1) (0 : Fin 1) p q))) := by
  unfold k0_pay7
  show IntOp.minsi (IntOp.addi (k0_pay6 v (ix2 p q)) 1#32) 32#32 = _
  rw [pay6_apply]
  rfl

/-! ## The hat weights of one axis, as a [33, 2048] array -/

/-- The one-hot blend of the lower and upper node, read at node k and lane p·128 + q. -/
theorem pay19_apply (w : FVec Ideal S16x128 .f32) (l u : IVec S16x128 32) (k : Fin 33) (p : Fin 16) (q : Fin 128) :
    k0_pay19 w l u (ix2 k (lane p q))
      = Scalar.select (IntOp.cmpi .eq (BitVec.ofNat 32 k.val) (l (ix2 p q))) (c1 - w (ix2 p q)) c0
        + Scalar.select (IntOp.cmpi .eq (BitVec.ofNat 32 k.val) (u (ix2 p q))) (w (ix2 p q)) c0 := by
  unfold k0_pay19
  simp only [addf_apply, select_apply, shapeCast_self]
  show Scalar.select (IntOp.cmpi .eq (iota .tc S33x2048 32 [0] iota_S33x2048_d0_w32 (ix2 k (lane p q)))
        (broadcastTo S33x2048 (shapeCast S1x2048 l shapeCasts_S16x128_S1x2048) broadcasts_S1x2048_S33x2048 (ix2 k (lane p q))))
      (broadcastTo S33x2048 (subf (broadcast S1x2048 (Scalar.ofBits .f32 0x3F800000#32)) (shapeCast S1x2048 w shapeCasts_S16x128_S1x2048)) broadcasts_S1x2048_S33x2048 (ix2 k (lane p q)))
      (Scalar.ofBits .f32 0x00000000#32)
    + Scalar.select (IntOp.cmpi .eq (iota .tc S33x2048 32 [0] iota_S33x2048_d0_w32 (ix2 k (lane p q)))
        (broadcastTo S33x2048 (shapeCast S1x2048 u shapeCasts_S16x128_S1x2048) broadcasts_S1x2048_S33x2048 (ix2 k (lane p q))))
      (broadcastTo S33x2048 (shapeCast S1x2048 w shapeCasts_S16x128_S1x2048) broadcasts_S1x2048_S33x2048 (ix2 k (lane p q)))
      (Scalar.ofBits .f32 0x00000000#32) = _
  rw [iota_single_apply, broadcastTo_1b_ab_apply, broadcastTo_1b_ab_apply, broadcastTo_1b_ab_apply, broadcastTo_1b_ab_apply,
    subf_apply, cast_row_apply, cast_row_apply, cast_row_apply]
  rfl

/-! ## The product with the red weights -/

theorem lhs_dot_0 (i : S1089x2048.Idx) (q : dot_S1089x33_S33x2048_S1089x2048_1_0_0_1_n_n.contr.Idx) :
    (dot_S1089x33_S33x2048_S1089x2048_1_0_0_1_n_n.lhsIdx i q 0).val = (i 0).val := by
  unfold DotDims.lhsIdx
  rw [dif_neg (show ¬(0 : Fin S1089x33.rank) ∈ dot_S1089x33_S33x2048_S1089x2048_1_0_0_1_n_n.lhsBatch by decide),
    dif_pos (show (0 : Fin S1089x33.rank) ∈ dot_S1089x33_S33x2048_S1089x2048_1_0_0_1_n_n.lhsNonContracting by decide)]
  rfl
theorem lhs_dot_1 (i : S1089x2048.Idx) (q : dot_S1089x33_S33x2048_S1089x2048_1_0_0_1_n_n.contr.Idx) :
    (dot_S1089x33_S33x2048_S1089x2048_1_0_0_1_n_n.lhsIdx i q 1).val = (q ⟨0, by decide⟩).val :=
  dot_S1089x33_S33x2048_S1089x2048_1_0_0_1_n_n.lhsIdx_val_of_single rfl i q
theorem rhs_dot_0 (i : S1089x2048.Idx) (q : dot_S1089x33_S33x2048_S1089x2048_1_0_0_1_n_n.contr.Idx) :
    (dot_S1089x33_S33x2048_S1089x2048_1_0_0_1_n_n.rhsIdx i q 0).val = (q ⟨0, by decide⟩).val :=
  dot_S1089x33_S33x2048_S1089x2048_1_0_0_1_n_n.rhsIdx_val_of_single rfl i q
theorem rhs_dot_1 (i : S1089x2048.Idx) (q : dot_S1089x33_S33x2048_S1089x2048_1_0_0_1_n_n.contr.Idx) :
    (dot_S1089x33_S33x2048_S1089x2048_1_0_0_1_n_n.rhsIdx i q 1).val = (i 1).val := by
  unfold DotDims.rhsIdx
  rw [dif_neg (show ¬(1 : Fin S33x2048.rank) ∈ dot_S1089x33_S33x2048_S1089x2048_1_0_0_1_n_n.rhsBatch by decide),
    dif_pos (show (1 : Fin S33x2048.rank) ∈ dot_S1089x33_S33x2048_S1089x2048_1_0_0_1_n_n.rhsNonContracting by decide)]
  rfl

/-- A [1089, 33] matrix times a [33, 2048] matrix, accumulated into zero, read at (r, t): the sum over the 33 nodes. -/
theorem matmul_zero_apply (A : FVec Ideal S1089x33 .bf16) (B : FVec Ideal S33x2048 .bf16) (r : Fin 1089) (t : Fin 2048) :
    matmul dot_S1089x33_S33x2048_S1089x2048_1_0_0_1_n_n none A B (constant (F := Ideal) S1089x2048 .f32 0x00000000#32) (ix2 r t)
      = ∑ k : Fin 33, A (ix2 r k) * B (ix2 k t) := by
  show FloatOps.matmul _ none A B _ (ix2 r t) = _
  rw [Ideal.matmul_constant_zero_apply, ← Equiv.sum_comp (contrEquiv1 dot_S1089x33_S33x2048_S1089x2048_1_0_0_1_n_n 33 rfl rfl).symm]
  refine Finset.sum_congr rfl fun k _ => ?_
  have hk := contrEquiv1_symm_val dot_S1089x33_S33x2048_S1089x2048_1_0_0_1_n_n 33 rfl rfl k
  have el : dot_S1089x33_S33x2048_S1089x2048_1_0_0_1_n_n.lhsIdx (ix2 r t) ((contrEquiv1 dot_S1089x33_S33x2048_S1089x2048_1_0_0_1_n_n 33 rfl rfl).symm k) = ix2 r k :=
    funext fun a => Fin.ext (by
      match a with
      | ⟨0, _⟩ => exact lhs_dot_0 _ _
      | ⟨1, _⟩ => exact (lhs_dot_1 _ _).trans hk)
  have er : dot_S1089x33_S33x2048_S1089x2048_1_0_0_1_n_n.rhsIdx (ix2 r t) ((contrEquiv1 dot_S1089x33_S33x2048_S1089x2048_1_0_0_1_n_n 33 rfl rfl).symm k) = ix2 k t :=
    funext fun a => Fin.ext (by
      match a with
      | ⟨0, _⟩ => exact (rhs_dot_0 _ _).trans hk
      | ⟨1, _⟩ => exact rhs_dot_1 _ _)
  rw [el, er]

/-! ## The table's rows, and the layout operations around the sums -/

/-- Row a·33 + b of the table flattened to [1089, 33]. -/
def row (a b : Fin 33) : Fin 1089 := ⟨a.val * 33 + b.val, by omega⟩

/-- The slab [1,33,33,33] flattened to [1089, 33] reads, at row a·33 + b and column k, the slab at (0, a, b, k). -/
theorem slab_apply {α : Type} (v : S1x33x33x33.Idx → α) (a b k : Fin 33) :
    shapeCast S1089x33 (shapeCast S33x33x33 v shapeCasts_S1x33x33x33_S33x33x33) shapeCasts_S33x33x33_S1089x33 (ix2 (row a b) k)
      = v (ix4 (0 : Fin 1) a b k) := by
  rw [shapeCast_apply _ shapeCasts_S33x33x33_S1089x33 (ix2 (row a b) k) (ix3 a b k) (by
      rw [Shape.rowMajor_val_three, Shape.rowMajor_val_two]; rfl),
    shapeCast_1abc_abc_apply]

/-- [1089, 2048] viewed as [33, 33, 2048]: (a, b, t) reads row a·33 + b at lane t. -/
theorem unrow_apply {α : Type} (v : S1089x2048.Idx → α) (a b : Fin 33) (t : Fin 2048) :
    shapeCast S33x33x2048 v shapeCasts_S1089x2048_S33x33x2048 (ix3 a b t) = v (ix2 (row a b) t) :=
  shapeCast_apply v _ _ _ (by rw [Shape.rowMajor_val_three, Shape.rowMajor_val_two]; rfl)

/-- A [33, 2048] array broadcast along a new leading axis of 33 reads, at (a, b, t), the array at (b, t). -/
theorem bcast_mid_apply {α : Type} (v : S33x2048.Idx → α) (a b : Fin 33) (t : Fin 2048) :
    broadcastTo S33x33x2048 (shapeCast S1x33x2048 v shapeCasts_S33x2048_S1x33x2048) broadcasts_S1x33x2048_S33x33x2048 (ix3 a b t)
      = v (ix2 b t) := by
  rw [broadcastTo_apply _ broadcasts_S1x33x2048_S33x33x2048 (ix3 a b t) (ix3 (0 : Fin 1) b t) (fun ax => by
      match ax with
      | ⟨0, _⟩ => rfl
      | ⟨1, _⟩ => rfl
      | ⟨2, _⟩ => rfl),
    shapeCast_ab_1ab_apply]

/-- The sum over the middle axis of a [33, 33, 2048] array, read at (a, t). -/
theorem sum_mid_apply (v : FVec Ideal S33x33x2048 .f32) (a : Fin 33) (t : Fin 2048) :
    multiReduction .add [1] S33x2048 v 0x00000000#32 reduces_S33x33x2048_S33x2048 (.inl rfl) rfl (ix2 a t)
      = ∑ b : Fin 33, v (ix3 a b t) := by
  refine (Ideal.multiReduction_add_single v 0x00000000#32 reduces_S33x33x2048_S33x2048 (.inl rfl) rfl (ix2 a t)).trans ?_
  refine Finset.sum_congr rfl fun b _ => congrArg v ?_
  funext c; apply Fin.ext
  match c with
  | ⟨0, _⟩ => rfl
  | ⟨1, _⟩ => rfl
  | ⟨2, _⟩ => rfl

/-- The sum over the leading axis of a [33, 2048] array, read at lane t. -/
theorem sum_lead_apply (v : FVec Ideal S33x2048 .f32) (t : Fin 2048) :
    multiReduction .add [0] S2048 v 0x00000000#32 reduces_S33x2048_S2048 (.inl rfl) rfl (ix1 t)
      = ∑ a : Fin 33, v (ix2 a t) := by
  refine (Ideal.multiReduction_add_single v 0x00000000#32 reduces_S33x2048_S2048 (.inl rfl) rfl (ix1 t)).trans ?_
  refine Finset.sum_congr rfl fun a _ => congrArg v ?_
  funext c; apply Fin.ext
  match c with
  | ⟨0, _⟩ => rfl
  | ⟨1, _⟩ => rfl

/-- A row of 2048 lanes stored as a [1,1,16,128] block reads, at (0, 0, p, q), lane p·128 + q. -/
theorem out_cast_apply {α : Type} (v : S2048.Idx → α) (p : Fin 16) (q : Fin 128) :
    shapeCast S1x1x16x128 (shapeCast S16x128 v shapeCasts_S2048_S16x128) shapeCasts_S16x128_S1x1x16x128
        (ix4 (0 : Fin 1) (0 : Fin 1) p q) = v (ix1 (lane p q)) := by
  rw [shapeCast_apply _ shapeCasts_S16x128_S1x1x16x128 (ix4 (0 : Fin 1) (0 : Fin 1) p q) (ix2 p q) (by
      rw [Shape.rowMajor_val_four, Shape.rowMajor_val_two]
      show p.val * 128 + q.val = ((0 * 1 + 0) * 16 + p.val) * 128 + q.val
      omega),
    shapeCast_apply _ shapeCasts_S2048_S16x128 (ix2 p q) (ix1 (lane p q)) (by
      rw [Shape.rowMajor_val_one, Shape.rowMajor_val_two]; rfl)]

/-! ## The contraction of a table slab with three weight arrays -/

/-- The stored block of one channel at pixel (p, q): the slab contracted with the three weight arrays' columns at the
    pixel's lane, innermost axis first. -/
theorem pay2_apply (wg wb : FVec Ideal S33x2048 .f32) (wr : FVec Ideal S33x2048 .bf16) (slab : Vec Ideal S1x33x33x33 .f32)
    (p : Fin 16) (q : Fin 128) :
    k0_pay2 wg wb wr slab (ix4 (0 : Fin 1) (0 : Fin 1) p q)
      = ∑ a : Fin 33, (∑ b : Fin 33, (∑ k : Fin 33, slab (ix4 (0 : Fin 1) a b k) * wr (ix2 k (lane p q)))
          * wg (ix2 b (lane p q))) * wb (ix2 a (lane p q)) := by
  unfold k0_pay2
  rw [out_cast_apply, sum_lead_apply]
  refine Finset.sum_congr rfl fun a _ => ?_
  rw [mulf_apply, sum_mid_apply]
  congr 1
  refine Finset.sum_congr rfl fun b _ => ?_
  rw [mulf_apply, bcast_mid_apply, unrow_apply, matmul_zero_apply]
  congr 1
  refine Finset.sum_congr rfl fun k _ => ?_
  rw [truncf_apply, slab_apply]

/-! ## The third colour block: scaled in one payload, clamped in the next -/

theorem pay13_apply (v : Vec Ideal S1x1x16x128 .f32) (p : Fin 16) (q : Fin 128) :
    k0_pay13 v (ix2 p q) = v (ix4 (0 : Fin 1) (0 : Fin 1) p q) * c32 := by
  unfold k0_pay13
  show shapeCast S16x128 v shapeCasts_S1x1x16x128_S16x128 (ix2 p q) * _ = _
  rw [cast_block_apply]
  rfl

theorem pay14_apply (v : Vec Ideal S1x1x16x128 .f32) (p : Fin 16) (q : Fin 128) :
    k0_pay14 (k0_pay13 v) (ix2 p q) = coord (v (ix4 (0 : Fin 1) (0 : Fin 1) p q)) := by
  unfold k0_pay14
  show min _ (max _ (k0_pay13 v (ix2 p q))) = _
  rw [pay13_apply]
  rfl

theorem pay16_apply (v : Vec Ideal S1x1x16x128 .f32) (p : Fin 16) (q : Fin 128) :
    k0_pay16 (k0_pay13 v) (ix2 p q) = frac (coord (v (ix4 (0 : Fin 1) (0 : Fin 1) p q))) := by
  unfold k0_pay16 k0_pay15
  show k0_pay14 (k0_pay13 v) (ix2 p q) - Ideal.liftRound Int.floor (k0_pay14 (k0_pay13 v) (ix2 p q)) = _
  rw [pay14_apply]
  rfl

theorem pay17_apply (v : Vec Ideal S1x1x16x128 .f32) (p : Fin 16) (q : Fin 128) :
    k0_pay17 (k0_pay13 v) (ix2 p q) = lo (coord (v (ix4 (0 : Fin 1) (0 : Fin 1) p q))) := by
  unfold k0_pay17 k0_pay15
  show Ideal.fptosi 32 (Ideal.liftRound Int.floor (k0_pay14 (k0_pay13 v) (ix2 p q))) = _
  rw [pay14_apply]
  rfl

theorem pay18_apply (v : Vec Ideal S1x1x16x128 .f32) (p : Fin 16) (q : Fin 128) :
    k0_pay18 (k0_pay13 v) (ix2 p q) = hi (coord (v (ix4 (0 : Fin 1) (0 : Fin 1) p q))) := by
  unfold k0_pay18
  show IntOp.minsi (IntOp.addi (k0_pay17 (k0_pay13 v) (ix2 p q)) 1#32) 32#32 = _
  rw [pay17_apply]
  rfl

theorem pay21_apply (v : Vec Ideal S1x1x16x128 .f32) (p : Fin 16) (q : Fin 128) :
    k0_pay21 (k0_pay13 v) (ix2 (0 : Fin 1) (lane p q)) = lo (coord (v (ix4 (0 : Fin 1) (0 : Fin 1) p q))) := by
  unfold k0_pay21
  rw [cast_row_apply, pay17_apply]

/-- The same blend with the lower node already laid out as a row of lanes. -/
theorem pay22_apply (w : FVec Ideal S16x128 .f32) (u : IVec S16x128 32) (l : IVec S1x2048 32) (k : Fin 33) (p : Fin 16) (q : Fin 128) :
    k0_pay22 w u l (ix2 k (lane p q))
      = Scalar.select (IntOp.cmpi .eq (BitVec.ofNat 32 k.val) (l (ix2 (0 : Fin 1) (lane p q)))) (c1 - w (ix2 p q)) c0
        + Scalar.select (IntOp.cmpi .eq (BitVec.ofNat 32 k.val) (u (ix2 p q))) (w (ix2 p q)) c0 := by
  unfold k0_pay22
  simp only [addf_apply, select_apply, shapeCast_self]
  show Scalar.select (IntOp.cmpi .eq (iota .tc S33x2048 32 [0] iota_S33x2048_d0_w32 (ix2 k (lane p q)))
        (broadcastTo S33x2048 l broadcasts_S1x2048_S33x2048 (ix2 k (lane p q))))
      (broadcastTo S33x2048 (subf (broadcast S1x2048 (Scalar.ofBits .f32 0x3F800000#32)) (shapeCast S1x2048 w shapeCasts_S16x128_S1x2048)) broadcasts_S1x2048_S33x2048 (ix2 k (lane p q)))
      (Scalar.ofBits .f32 0x00000000#32)
    + Scalar.select (IntOp.cmpi .eq (iota .tc S33x2048 32 [0] iota_S33x2048_d0_w32 (ix2 k (lane p q)))
        (broadcastTo S33x2048 (shapeCast S1x2048 u shapeCasts_S16x128_S1x2048) broadcasts_S1x2048_S33x2048 (ix2 k (lane p q))))
      (broadcastTo S33x2048 (shapeCast S1x2048 w shapeCasts_S16x128_S1x2048) broadcasts_S1x2048_S33x2048 (ix2 k (lane p q)))
      (Scalar.ofBits .f32 0x00000000#32) = _
  rw [iota_single_apply, broadcastTo_1b_ab_apply, broadcastTo_1b_ab_apply, broadcastTo_1b_ab_apply, broadcastTo_1b_ab_apply,
    subf_apply, cast_row_apply, cast_row_apply]
  rfl

/-! ## The three weight arrays are the hat weights of the three colour values -/

theorem red_weights (v : Vec Ideal S1x1x16x128 .f32) (k : Fin 33) (p : Fin 16) (q : Fin 128) :
    k0_pay19 (k0_pay5 v) (k0_pay6 v) (k0_pay7 v) (ix2 k (lane p q)) = hat (coord (v (ix4 (0 : Fin 1) (0 : Fin 1) p q))) k.val := by
  rw [pay19_apply, pay5_apply, pay6_apply, pay7_apply]
  rfl

/-- The second colour's payloads are the first's, term for term. -/
theorem green_weights (v : Vec Ideal S1x1x16x128 .f32) (k : Fin 33) (p : Fin 16) (q : Fin 128) :
    k0_pay20 (k0_pay10 v) (k0_pay11 v) (k0_pay12 v) (ix2 k (lane p q)) = hat (coord (v (ix4 (0 : Fin 1) (0 : Fin 1) p q))) k.val :=
  red_weights v k p q

theorem blue_weights (v : Vec Ideal S1x1x16x128 .f32) (k : Fin 33) (p : Fin 16) (q : Fin 128) :
    k0_pay22 (k0_pay16 (k0_pay13 v)) (k0_pay18 (k0_pay13 v)) (k0_pay21 (k0_pay13 v)) (ix2 k (lane p q))
      = hat (coord (v (ix4 (0 : Fin 1) (0 : Fin 1) p q))) k.val := by
  rw [pay22_apply, pay16_apply, pay18_apply, pay21_apply]
  rfl

/-! ## One channel's stored block -/

/-- What the body stores for one channel, from the three colour blocks and the channel's slab of the table. -/
def chan (vr vg vb : Vec Ideal S1x1x16x128 .f32) (slab : Vec Ideal S1x33x33x33 .f32) : FVec Ideal S1x1x16x128 .f32 :=
  k0_pay2 (k0_pay20 (k0_pay10 vg) (k0_pay11 vg) (k0_pay12 vg))
    (k0_pay22 (k0_pay16 (k0_pay13 vb)) (k0_pay18 (k0_pay13 vb)) (k0_pay21 (k0_pay13 vb)))
    (k0_pay23 (k0_pay19 (k0_pay5 vr) (k0_pay6 vr) (k0_pay7 vr))) slab

/-- At pixel (p, q) it is the separable form of the three colour values there and the slab. -/
theorem chan_apply (vr vg vb : Vec Ideal S1x1x16x128 .f32) (slab : Vec Ideal S1x33x33x33 .f32) (p : Fin 16) (q : Fin 128) :
    chan vr vg vb slab (ix4 (0 : Fin 1) (0 : Fin 1) p q)
      = pixel (vr (ix4 (0 : Fin 1) (0 : Fin 1) p q)) (vg (ix4 (0 : Fin 1) (0 : Fin 1) p q)) (vb (ix4 (0 : Fin 1) (0 : Fin 1) p q))
          (fun a b k => slab (ix4 (0 : Fin 1) a b k)) := by
  unfold chan pixel
  rw [pay2_apply]
  refine Finset.sum_congr rfl fun a _ => ?_
  rw [blue_weights]
  congr 1
  refine Finset.sum_congr rfl fun b _ => ?_
  rw [green_weights]
  congr 1
  refine Finset.sum_congr rfl fun k _ => ?_
  unfold k0_pay23
  rw [truncf_apply, red_weights]

/-- The three stores make the same block: one takes its product with the red weights from an earlier payload, one
    has the blue weights inside it. -/
theorem pay1_eq (wg wb wr : FVec Ideal S33x2048 .f32) (slab : Vec Ideal S1x33x33x33 .f32) :
    k0_pay1 wg wb (k0_pay25 wr slab) = k0_pay2 wg wb (k0_pay23 wr) slab := rfl
theorem pay24_eq (w : FVec Ideal S16x128 .f32) (u : IVec S16x128 32) (wr wg : FVec Ideal S33x2048 .f32) (l : IVec S1x2048 32)
    (slab : Vec Ideal S1x33x33x33 .f32) :
    k0_pay24 w u wr wg l slab = k0_pay2 wg (k0_pay22 w u l) (k0_pay23 wr) slab := rfl

/-! ## The body's loads and stores, at a pixel -/

/-- Pixel (p, q) of colour plane 0 of the block. -/
theorem emb_r0_0 (p : Fin 16) (q : Fin 128) :
    r0_0.emb (ix4 (0 : Fin 1) (0 : Fin 1) p q) = ix4 (0 : Fin 1) (0 : Fin 3) p q := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem ld_r0_0 (x0 : Vec Ideal S1x3x16x128 .f32) (p : Fin 16) (q : Fin 128) :
    View.ld x0 r0_0 (ix4 (0 : Fin 1) (0 : Fin 1) p q) = x0 (ix4 (0 : Fin 1) (0 : Fin 3) p q) :=
  congrArg x0 (emb_r0_0 p q)

/-- Pixel (p, q) of colour plane 1 of the block. -/
theorem emb_r0_1 (p : Fin 16) (q : Fin 128) :
    r0_1.emb (ix4 (0 : Fin 1) (0 : Fin 1) p q) = ix4 (0 : Fin 1) (1 : Fin 3) p q := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem ld_r0_1 (x0 : Vec Ideal S1x3x16x128 .f32) (p : Fin 16) (q : Fin 128) :
    View.ld x0 r0_1 (ix4 (0 : Fin 1) (0 : Fin 1) p q) = x0 (ix4 (0 : Fin 1) (1 : Fin 3) p q) :=
  congrArg x0 (emb_r0_1 p q)

/-- Pixel (p, q) of colour plane 2 of the block. -/
theorem emb_r0_2 (p : Fin 16) (q : Fin 128) :
    r0_2.emb (ix4 (0 : Fin 1) (0 : Fin 1) p q) = ix4 (0 : Fin 1) (2 : Fin 3) p q := by
  funext a; apply Fin.ext
  match a with
  | ⟨0, _⟩ => rfl
  | ⟨1, _⟩ => rfl
  | ⟨2, _⟩ => show 0 + 1 * p.val = p.val; omega
  | ⟨3, _⟩ => show 0 + 1 * q.val = q.val; omega

theorem ld_r0_2 (x0 : Vec Ideal S1x3x16x128 .f32) (p : Fin 16) (q : Fin 128) :
    View.ld x0 r0_2 (ix4 (0 : Fin 1) (0 : Fin 1) p q) = x0 (ix4 (0 : Fin 1) (2 : Fin 3) p q) :=
  congrArg x0 (emb_r0_2 p q)

/-- Entry (a, b, k) of channel 0's slab of the table. -/
theorem ld_r0_3 (x1 : Vec Ideal S3x33x33x33 .f32) (a b k : Fin 33) :
    View.ld x1 r0_3 (ix4 (0 : Fin 1) a b k) = x1 (ix4 (0 : Fin 3) a b k) := by
  refine congrArg x1 ?_
  funext d; apply Fin.ext
  match d with
  | ⟨0, _⟩ => rfl
  | ⟨1, _⟩ => show 0 + 1 * a.val = a.val; omega
  | ⟨2, _⟩ => show 0 + 1 * b.val = b.val; omega
  | ⟨3, _⟩ => show 0 + 1 * k.val = k.val; omega

/-- Entry (a, b, k) of channel 1's slab of the table. -/
theorem ld_r0_4 (x1 : Vec Ideal S3x33x33x33 .f32) (a b k : Fin 33) :
    View.ld x1 r0_4 (ix4 (0 : Fin 1) a b k) = x1 (ix4 (1 : Fin 3) a b k) := by
  refine congrArg x1 ?_
  funext d; apply Fin.ext
  match d with
  | ⟨0, _⟩ => rfl
  | ⟨1, _⟩ => show 0 + 1 * a.val = a.val; omega
  | ⟨2, _⟩ => show 0 + 1 * b.val = b.val; omega
  | ⟨3, _⟩ => show 0 + 1 * k.val = k.val; omega

/-- Entry (a, b, k) of channel 2's slab of the table. -/
theorem ld_r0_5 (x1 : Vec Ideal S3x33x33x33 .f32) (a b k : Fin 33) :
    View.ld x1 r0_5 (ix4 (0 : Fin 1) a b k) = x1 (ix4 (2 : Fin 3) a b k) := by
  refine congrArg x1 ?_
  funext d; apply Fin.ext
  match d with
  | ⟨0, _⟩ => rfl
  | ⟨1, _⟩ => show 0 + 1 * a.val = a.val; omega
  | ⟨2, _⟩ => show 0 + 1 * b.val = b.val; omega
  | ⟨3, _⟩ => show 0 + 1 * k.val = k.val; omega

/-- A pixel of colour plane c < 2 is not under the store to plane 2, -/
theorem not_mem_r0_2 (c : Fin 3) (hc : c.val < 2) (p : Fin 16) (q : Fin 128) :
    ix4 (0 : Fin 1) c p q ∉ r0_2.set := fun h => by
  have h1 : 2 ≤ c.val := ((Rect.mem_set_unit.mp h) 1).1
  omega
/-- nor one of plane 0 under the store to plane 1. -/
theorem not_mem_r0_1 (p : Fin 16) (q : Fin 128) :
    ix4 (0 : Fin 1) (0 : Fin 3) p q ∉ r0_1.set := fun h => by
  have h1 : 1 ≤ 0 := ((Rect.mem_set_unit.mp h) 1).1
  omega

section
variable (P2 P1 P0 : Vec Ideal S1x1x16x128 .f32) (p : Fin 16) (q : Fin 128)

/-- The block three plane stores leave (newest first), read in plane 2: the newest store's payload; -/
theorem canon_plane2 :
    View.canon ([⟨r0_2, P2⟩, ⟨r0_1, P1⟩, ⟨r0_0, P0⟩] : List (View.Piece (Elt Ideal) S1x3x16x128 .f32))
      (ix4 (0 : Fin 1) (2 : Fin 3) p q) = P2 (ix4 (0 : Fin 1) (0 : Fin 1) p q) := by
  rw [← emb_r0_2 p q]
  exact View.canon_cons_emb r0_2 P2 _ _

/-- in plane 1: the middle store's; -/
theorem canon_plane1 :
    View.canon ([⟨r0_2, P2⟩, ⟨r0_1, P1⟩, ⟨r0_0, P0⟩] : List (View.Piece (Elt Ideal) S1x3x16x128 .f32))
      (ix4 (0 : Fin 1) (1 : Fin 3) p q) = P1 (ix4 (0 : Fin 1) (0 : Fin 1) p q) := by
  rw [View.canon_cons_of_not_mem (⟨r0_2, P2⟩ : View.Piece (Elt Ideal) S1x3x16x128 .f32) _ (not_mem_r0_2 1 (by decide) p q),
    ← emb_r0_1 p q]
  exact View.canon_cons_emb r0_1 P1 _ _

/-- in plane 0: the oldest store's. -/
theorem canon_plane0 :
    View.canon ([⟨r0_2, P2⟩, ⟨r0_1, P1⟩, ⟨r0_0, P0⟩] : List (View.Piece (Elt Ideal) S1x3x16x128 .f32))
      (ix4 (0 : Fin 1) (0 : Fin 3) p q) = P0 (ix4 (0 : Fin 1) (0 : Fin 1) p q) := by
  rw [View.canon_cons_of_not_mem (⟨r0_2, P2⟩ : View.Piece (Elt Ideal) S1x3x16x128 .f32) _ (not_mem_r0_2 0 (by decide) p q),
    View.canon_cons_of_not_mem (⟨r0_1, P1⟩ : View.Piece (Elt Ideal) S1x3x16x128 .f32) _ (not_mem_r0_1 p q),
    ← emb_r0_0 p q]
  exact View.canon_cons_emb r0_0 P0 _ _

end

/-- The block the body leaves, read in plane c at pixel (p, q): the channel block of the three colour planes and
    slab c of the table. -/
theorem out_chan (x0 : Vec Ideal S1x3x16x128 .f32) (x1 : Vec Ideal S3x33x33x33 .f32) (p : Fin 16) (q : Fin 128) :
    out0_2 (F := Ideal) x0 x1 (ix4 (0 : Fin 1) (0 : Fin 3) p q)
        = chan (View.ld x0 r0_0) (View.ld x0 r0_1) (View.ld x0 r0_2) (View.ld x1 r0_3) (ix4 (0 : Fin 1) (0 : Fin 1) p q)
      ∧ out0_2 (F := Ideal) x0 x1 (ix4 (0 : Fin 1) (1 : Fin 3) p q)
        = chan (View.ld x0 r0_0) (View.ld x0 r0_1) (View.ld x0 r0_2) (View.ld x1 r0_4) (ix4 (0 : Fin 1) (0 : Fin 1) p q)
      ∧ out0_2 (F := Ideal) x0 x1 (ix4 (0 : Fin 1) (2 : Fin 3) p q)
        = chan (View.ld x0 r0_0) (View.ld x0 r0_1) (View.ld x0 r0_2) (View.ld x1 r0_5) (ix4 (0 : Fin 1) (0 : Fin 1) p q) := by
  unfold out0_2 chan
  refine ⟨?_, ?_, ?_⟩
  · rw [canon_plane0, pay24_eq]
  · rw [canon_plane1, pay1_eq]
  · rw [canon_plane2]

end KernelPixel

open KernelPixel

theorem out_apply (x0 : Vec Ideal S1x3x16x128 .f32) (x1 : Vec Ideal S3x33x33x33 .f32) (c : Fin 3) (p : Fin 16) (q : Fin 128) :
    out0_2 (F := Ideal) x0 x1 (ix4 0 c p q)
      = pixel (x0 (ix4 0 0 p q)) (x0 (ix4 0 1 p q)) (x0 (ix4 0 2 p q)) (fun a b k => x1 (ix4 c a b k)) := by
  obtain ⟨h0, h1, h2⟩ := out_chan x0 x1 p q
  match c with
  | ⟨0, _⟩ =>
    refine h0.trans ?_
    rw [chan_apply, ld_r0_0, ld_r0_1, ld_r0_2]
    exact congrArg (pixel _ _ _) (funext fun a => funext fun b => funext fun k => ld_r0_3 x1 a b k)
  | ⟨1, _⟩ =>
    refine h1.trans ?_
    rw [chan_apply, ld_r0_0, ld_r0_1, ld_r0_2]
    exact congrArg (pixel _ _ _) (funext fun a => funext fun b => funext fun k => ld_r0_4 x1 a b k)
  | ⟨2, _⟩ =>
    refine h2.trans ?_
    rw [chan_apply, ld_r0_0, ld_r0_1, ld_r0_2]
    exact congrArg (pixel _ _ _) (funext fun a => funext fun b => funext fun k => ld_r0_5 x1 a b k)

end Cert.Lut

end
-- ==== Proof.KernelValue.lean ====
/-
  From blocks to the array: the kernel's output array after the run is the transformed image `G` of the two argument
  arrays. Grid point (b, hb, wb) stages pixel rows 16·hb … 16·hb + 15 and columns 128·wb … 128·wb + 127 of image b (all
  three channels) and the whole table, and writes back the same rectangle of the output; the 8·64·8 rectangles tile the array.
-/
import proofs.«110537_j28467043237891_1_alg».proof.Proof.Gen.KernelIdeal.Value
import proofs.«110537_j28467043237891_1_alg».proof.Proof.KernelPixel
import Idealize.ShloMosaic.Lib.Pipeline.Value

noncomputable section

namespace Cert.Lut

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-! ## The index maps -/

theorem toNat_small (x : ℕ) (h : x < 1024) : (BitVec.ofNat 32 x).toNat = x := by
  rw [BitVec.toNat_ofNat]; exact Nat.mod_eq_of_lt (by omega)

/-- The image window and the output window sit at block (b, 0, hb, wb) at grid point (b, hb, wb). -/
theorem index2 (t : Fin cfg0.N) :
    win0_2.index t = ![(grid0.coords t 0).val, 0, (grid0.coords t 1).val, (grid0.coords t 2).val] := by
  have h0 : (grid0.coords t 0).val < 8 := (grid0.coords t 0).isLt
  have h1 : (grid0.coords t 1).val < 64 := (grid0.coords t 1).isLt
  have h2 : (grid0.coords t 2).val < 8 := (grid0.coords t 2).isLt
  show cc0_transform_2 (grid0.coords t) = _
  unfold cc0_transform_2
  simp only [toNat_small _ (by omega : (grid0.coords t 0).val < 1024), toNat_small _ (by omega : (grid0.coords t 1).val < 1024),
    toNat_small _ (by omega : (grid0.coords t 2).val < 1024)]
  rfl

theorem index0 (t : Fin cfg0.N) : win0_0.index t = win0_2.index t := rfl

/-- The table window sits at block 0 at every point. -/
theorem index1 (t : Fin cfg0.N) : win0_1.index t = ![0, 0, 0, 0] := rfl

/-! ## What a grid point writes back -/

/-- The body's result block at a grid point, entry by entry, is the transformed image at the entry's place in the array. -/
theorem block_eq (c : Dev nD) (t : Fin cfg0.N) (y : S1x3x16x128.Idx) :
    out0_2 (iblk m c 0 t) (iblk m c 1 t) y
      = G (V m c main_arg0) (V m c main_arg1) (((cfg0.win 2).blk t).view.emb y) := by
  have hy : y = ix4 (0 : Fin 1) (y 1) (y 2) (y 3) := by
    funext a
    match a with
    | ⟨0, _⟩ => exact Fin.ext (Nat.lt_one_iff.mp (y 0).isLt)
    | ⟨1, _⟩ => rfl
    | ⟨2, _⟩ => rfl
    | ⟨3, _⟩ => rfl
  have e2 := index2 t
  have e20 : win0_2.index t 0 = (grid0.coords t 0).val := congrFun e2 0
  have e21 : win0_2.index t 1 = 0 := congrFun e2 1
  have e22 : win0_2.index t 2 = (grid0.coords t 1).val := congrFun e2 2
  have e23 : win0_2.index t 3 = (grid0.coords t 2).val := congrFun e2 3
  rw [hy]
  refine (out_apply (iblk m c 0 t) (iblk m c 1 t) (y 1) (y 2) (y 3)).trans ?_
  unfold G
  congr 1
  · show V m c main_arg0 (((cfg0.win 0).blk t).view.emb (ix4 0 0 (y 2) (y 3))) = V m c main_arg0 _
    congr 1; funext a; apply Fin.ext
    match a with
    | ⟨0, _⟩ => show win0_0.index t 0 * 1 + 1 * 0 = win0_2.index t 0 * 1 + 1 * 0; rfl
    | ⟨1, _⟩ => show win0_0.index t 1 * 3 + 1 * 0 = 0; rw [index0, e21]
    | ⟨2, _⟩ => show win0_0.index t 2 * 16 + 1 * (y 2).val = win0_2.index t 2 * 16 + 1 * (y 2).val; rfl
    | ⟨3, _⟩ => show win0_0.index t 3 * 128 + 1 * (y 3).val = win0_2.index t 3 * 128 + 1 * (y 3).val; rfl
  · show V m c main_arg0 (((cfg0.win 0).blk t).view.emb (ix4 0 1 (y 2) (y 3))) = V m c main_arg0 _
    congr 1; funext a; apply Fin.ext
    match a with
    | ⟨0, _⟩ => show win0_0.index t 0 * 1 + 1 * 0 = win0_2.index t 0 * 1 + 1 * 0; rfl
    | ⟨1, _⟩ => show win0_0.index t 1 * 3 + 1 * 1 = 1; rw [index0, e21]
    | ⟨2, _⟩ => show win0_0.index t 2 * 16 + 1 * (y 2).val = win0_2.index t 2 * 16 + 1 * (y 2).val; rfl
    | ⟨3, _⟩ => show win0_0.index t 3 * 128 + 1 * (y 3).val = win0_2.index t 3 * 128 + 1 * (y 3).val; rfl
  · show V m c main_arg0 (((cfg0.win 0).blk t).view.emb (ix4 0 2 (y 2) (y 3))) = V m c main_arg0 _
    congr 1; funext a; apply Fin.ext
    match a with
    | ⟨0, _⟩ => show win0_0.index t 0 * 1 + 1 * 0 = win0_2.index t 0 * 1 + 1 * 0; rfl
    | ⟨1, _⟩ => show win0_0.index t 1 * 3 + 1 * 2 = 2; rw [index0, e21]
    | ⟨2, _⟩ => show win0_0.index t 2 * 16 + 1 * (y 2).val = win0_2.index t 2 * 16 + 1 * (y 2).val; rfl
    | ⟨3, _⟩ => show win0_0.index t 3 * 128 + 1 * (y 3).val = win0_2.index t 3 * 128 + 1 * (y 3).val; rfl
  · funext a b k
    show V m c main_arg1 (((cfg0.win 1).blk t).view.emb (ix4 (y 1) a b k)) = V m c main_arg1 _
    congr 1; funext d; apply Fin.ext
    match d with
    | ⟨0, _⟩ => show win0_1.index t 0 * 3 + 1 * (y 1).val = win0_2.index t 1 * 3 + 1 * (y 1).val; rw [e21]; rfl
    | ⟨1, _⟩ => show win0_1.index t 1 * 33 + 1 * a.val = a.val; rw [index1]; simp
    | ⟨2, _⟩ => show win0_1.index t 2 * 33 + 1 * b.val = b.val; rw [index1]; simp
    | ⟨3, _⟩ => show win0_1.index t 3 * 33 + 1 * k.val = k.val; rw [index1]; simp

/-- What grid point `t` writes back is block `t` of the transformed image. -/
theorem flushed_eq (c : Dev nD) (t : Fin cfg0.N) :
    (dats m 0 c).flushed 2 t
      = ((cfg0.win 2).blk t).view.read (Elt Ideal) (G (V m c main_arg0) (V m c main_arg1)) := by
  rw [Cert.KernelIdeal.Value.flushed2]
  funext j
  exact block_eq m c t j

/-! ## The rectangles tile the array -/

/-- An index of the array is in point `t`'s rectangle iff each coordinate is in the rectangle's range on its axis. -/
theorem mem_blk (t : Fin cfg0.N) (i : S8x3x1024x1024.Idx) :
    i ∈ ((cfg0.win 2).blk t).view.set ↔ ∀ a : Fin 4, win0_2.index t a * S1x3x16x128.size a ≤ (i a).val
      ∧ (i a).val < win0_2.index t a * S1x3x16x128.size a + S1x3x16x128.size a := by
  show i ∈ ((View.whole main_v0).slice (win0_2.rect t)).set ↔ _
  rw [View.set_slice_whole, Rect.mem_set_unit]
  exact Iff.rfl

/-- Every index lies in the rectangle of the grid point (image, row / 16, column / 128). -/
theorem cover (i : S8x3x1024x1024.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1024 := (i 2).isLt
  have h3 : (i 3).val < 1024 := (i 3).isLt
  have hN : (i 0).val * 512 + (i 2).val / 16 * 8 + (i 3).val / 128 < 4096 := by omega
  let t : Fin cfg0.N := ⟨(i 0).val * 512 + (i 2).val / 16 * 8 + (i 3).val / 128, hN⟩
  have c0 : (grid0.coords t 0).val = (i 0).val := by
    show ((i 0).val * 512 + (i 2).val / 16 * 8 + (i 3).val / 128) / 512 % 8 = (i 0).val; omega
  have c1 : (grid0.coords t 1).val = (i 2).val / 16 := by
    show ((i 0).val * 512 + (i 2).val / 16 * 8 + (i 3).val / 128) / 8 % 64 = (i 2).val / 16; omega
  have c2 : (grid0.coords t 2).val = (i 3).val / 128 := by
    show ((i 0).val * 512 + (i 2).val / 16 * 8 + (i 3).val / 128) / 1 % 8 = (i 3).val / 128; omega
  have e2 := index2 t
  have e20 : win0_2.index t 0 = (grid0.coords t 0).val := congrFun e2 0
  have e21 : win0_2.index t 1 = 0 := congrFun e2 1
  have e22 : win0_2.index t 2 = (grid0.coords t 1).val := congrFun e2 2
  have e23 : win0_2.index t 3 = (grid0.coords t 2).val := congrFun e2 3
  refine ⟨t, flush0_2 t, ?_⟩
  rw [mem_blk]
  intro a
  match a with
  | ⟨0, _⟩ => show win0_2.index t 0 * 1 ≤ (i 0).val ∧ (i 0).val < win0_2.index t 0 * 1 + 1; omega
  | ⟨1, _⟩ => show win0_2.index t 1 * 3 ≤ (i 1).val ∧ (i 1).val < win0_2.index t 1 * 3 + 3; omega
  | ⟨2, _⟩ => show win0_2.index t 2 * 16 ≤ (i 2).val ∧ (i 2).val < win0_2.index t 2 * 16 + 16; omega
  | ⟨3, _⟩ => show win0_2.index t 3 * 128 ≤ (i 3).val ∧ (i 3).val < win0_2.index t 3 * 128 + 128; omega

/-- The output array after the run is the transformed image of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run, its result named: the transformed image of the arguments, which end unchanged. -/
theorem kernel_run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Lut

end
-- ==== Proof.LibGatherCols.lean ====
/-
  A general lemma: `stablehlo.gather` of the COLUMNS of a rank-2 operand, read at an index.

  What `x[:, idx]` of a table `x : [C, N]` at an integer array `idx : [B, H, W]` lowers to: a gather with offset_dims
  `[0]`, collapsed_slice_dims `[1]`, start_index_map `[1]`, slice_sizes `[C, 1]` and index_vector_dim 3 over the
  indices as `[B, H, W, 1]`. Result element `(c, b, h, v)` is row `c` of the operand at the column `idx[b, h, v, 0]`,
  read as a signed integer and clamped into `[0, N − 1]`: on the row axis the slice is the whole axis (its start is 0
  and the result's first coordinate is the offset inside it), on the column axis the slice has one element (the axis
  is collapsed, so the clamped start index is the column itself).
-/
import Idealize.ShloMosaic.Lib.ValueIdx

noncomputable section

namespace Idealize.ShloMosaic.ValueIdx

open Idealize.ShloMosaic

section Cols
variable {α : Type}

/-- Those dimension numbers for an operand `[C, N]`, start indices `[B, H, W, 1]` and result `[C, B, H, W]`; their
    conditions `wf` are decided on a program's literal shapes. -/
abbrev colsDims (C N B H W : Nat)
    (wf : GatherDims.WF ⟨2, ![C, N]⟩ ⟨4, ![B, H, W, 1]⟩ ⟨4, ![C, B, H, W]⟩ [0] [1] [] [1] [] 3 ![C, 1]) :
    GatherDims ⟨2, ![C, N]⟩ ⟨4, ![B, H, W, 1]⟩ ⟨4, ![C, B, H, W]⟩ where
  offsetDims := [0]
  collapsedSliceDims := [1]
  operandBatchingDims := []
  startIndicesBatchingDims := []
  startIndexMap := [1]
  indexVectorDim := 3
  sliceSizes := ![C, 1]
  wf := wf

/-- The two axes of a rank-2 operand are different. -/
private theorem fin2_zero_ne_one : (0 : Fin 2) ≠ 1 := by decide

/-- THE GATHER READ AT `(c, b, h, v)`: row `c` of the operand at the column `idx[b, h, v, 0]`, read signed and clamped
    into `[0, N − 1]`. -/
theorem gather_cols_apply {C N B H W w : Nat} (hN : 0 < N)
    (wf : GatherDims.WF ⟨2, ![C, N]⟩ ⟨4, ![B, H, W, 1]⟩ ⟨4, ![C, B, H, W]⟩ [0] [1] [] [1] [] 3 ![C, 1])
    (x : (⟨2, ![C, N]⟩ : Shape).Idx → α) (idx : IVec ⟨4, ![B, H, W, 1]⟩ w)
    (c : Fin C) (b : Fin B) (h : Fin H) (v : Fin W) :
    Host.gather (colsDims C N B H W wf) x idx (ix4 c b h v)
      = x (ix2 c ⟨min (idx (ix4 b h v (0 : Fin 1))).toInt.toNat (N - 1), by omega⟩) := by
  unfold Host.gather
  congr 1
  funext a
  refine Fin.ext ?_
  match a with
  | ⟨0, _⟩ =>
    -- the row axis: not in the start index map, not a batching axis, kept: the result's offset coordinate
    show (colsDims C N B H W wf).start (ix4 c b h v) idx 0 + (colsDims C N B H W wf).batchCoord (ix4 c b h v) 0
      + (colsDims C N B H W wf).offCoord (ix4 c b h v) 0 = c.val
    rw [GatherDims.batchCoord_eq_zero _ _ _ List.not_mem_nil]
    unfold GatherDims.start GatherDims.offCoord
    rw [dif_neg (fun hk => absurd (List.mem_singleton.mp hk) fin2_zero_ne_one),
      dif_pos ((GatherDims.mem_sKept _ _).mpr
        ⟨fun hk => absurd (List.mem_singleton.mp hk) fin2_zero_ne_one, List.not_mem_nil⟩)]
    simp only [Nat.add_zero, Nat.zero_add]
    rfl
  | ⟨1, _⟩ =>
    -- the column axis: in the start index map, collapsed: the clamped start index alone
    show (colsDims C N B H W wf).start (ix4 c b h v) idx 1 + (colsDims C N B H W wf).batchCoord (ix4 c b h v) 1
      + (colsDims C N B H W wf).offCoord (ix4 c b h v) 1 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (1 : Fin 2) ∈ (colsDims C N B H W wf).startIndexMap from List.mem_singleton.mpr rfl)]
    have hsi : (colsDims C N B H W wf).siIdx (ix4 c b h v) ⟨List.idxOf (1 : Fin 2) (colsDims C N B H W wf).startIndexMap,
        List.idxOf_lt_length_iff.2 (List.mem_singleton.mpr rfl)⟩ = ix4 b h v (0 : Fin 1) := by
      funext k; refine Fin.ext ?_
      match k with
      | ⟨0, _⟩ => rfl
      | ⟨1, _⟩ => rfl
      | ⟨2, _⟩ => rfl
      | ⟨3, _⟩ => rfl
    rw [hsi]
    rfl

end Cols

end Idealize.ShloMosaic.ValueIdx

end
-- ==== Proof.RefPixel.lean ====
/-
  The reference's result, read at an index: entry (b, c, h, w) is the eight-corner form `refPixel` of the input's three
  colour values at (b, ·, h, w) and channel c of the table.

  The reading follows the program's own order. Every entry of the input goes to its clamped lattice coordinate; the three
  channels are sliced out, so that at a pixel the red, green and blue coordinates are those of the input's three values
  there. On each axis the floor gives the lower node, the upper node and the fractional part. The eight corners' flat
  positions (blue·33 + green)·33 + red are wrapped and used as start indices of eight gathers of the table's columns,
  each of which is the table at that corner. The weights 1 − w and w of each axis are spread over the channel axis, and
  the corners are blended along red, then green, then blue; the result is stored with the batch axis first.
-/
import proofs.«110537_j28467043237891_1_alg».proof.Proof.Gen.ReferenceIdeal.Read
import proofs.«110537_j28467043237891_1_alg».proof.Proof.Spec
import proofs.«110537_j28467043237891_1_alg».proof.Proof.LibGatherCols
import Idealize.ShloMosaic.Lib.ValueIdx
import Idealize.ShloMosaic.Lib.ValueLayout
import Idealize.ShloMosaic.Lib.Pipeline.Value
import Idealize.ShloMosaic.PureOps.Ideal.Laws

noncomputable section

namespace Cert.Lut

open Idealize.ShloMosaic Idealize.ShloMosaic.ValueIdx Cert.ReferenceIdeal Cert.ReferenceIdeal.Read

/-! ## The lattice coordinate of each channel at a pixel -/

/-- Every entry of the input is sent to its clamped lattice coordinate. -/
theorem coord_at (x0 : (⟨S8x3x1024x1024, .f32⟩ : BufTy).Contents (Elt Ideal)) (i : S8x3x1024x1024.Idx) :
    val_main_v10 (F := Ideal) x0 i = coordR (x0 i) := by
  simp only [val_main_v10_apply, val_main_call0_v4_apply, val_main_call0_v3_apply, val_main_c_apply,
    val_main_call0_v2_apply, val_main_call0_v1_apply, val_main_call0_v0_apply, val_main_cst_4_apply,
    val_main_v9_apply, val_main_v8_apply, val_main_cst_3_apply, val_main_v7_apply, val_main_v6_apply,
    val_main_cst_2_apply, val_main_v5_apply, val_main_v4_apply, val_main_cst_1_apply, val_main_v3_apply,
    val_main_v2_apply, val_main_cst_0_apply, val_main_v1_apply, val_main_v0_apply, val_main_cst_apply]
  rfl

/-- The red channel's coordinate at pixel (b, h, w): channel 0 sliced out and the unit axis dropped. -/
theorem red_at (x0 : (⟨S8x3x1024x1024, .f32⟩ : BufTy).Contents (Elt Ideal)) (b : Fin 8) (h w : Fin 1024) :
    val_main_v12 (F := Ideal) x0 (ix3 b h w) = coordR (x0 (ix4 b 0 h w)) := by
  rw [val_main_v12_apply, val_main_v11_apply, coord_at]
  congr 2
  funext a
  refine Fin.ext ?_
  have hb := b.isLt; have hh := h.isLt; have hw := w.isLt
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) % 1024 = w.val; omega

/-- The green channel's coordinate at pixel (b, h, w). -/
theorem green_at (x0 : (⟨S8x3x1024x1024, .f32⟩ : BufTy).Contents (Elt Ideal)) (b : Fin 8) (h w : Fin 1024) :
    val_main_v14 (F := Ideal) x0 (ix3 b h w) = coordR (x0 (ix4 b 1 h w)) := by
  rw [val_main_v14_apply, val_main_v13_apply, coord_at]
  congr 2
  funext a
  refine Fin.ext ?_
  have hb := b.isLt; have hh := h.isLt; have hw := w.isLt
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) % 1024 = w.val; omega

/-- The blue channel's coordinate at pixel (b, h, w). -/
theorem blue_at (x0 : (⟨S8x3x1024x1024, .f32⟩ : BufTy).Contents (Elt Ideal)) (b : Fin 8) (h w : Fin 1024) :
    val_main_v16 (F := Ideal) x0 (ix3 b h w) = coordR (x0 (ix4 b 2 h w)) := by
  rw [val_main_v16_apply, val_main_v15_apply, coord_at]
  congr 2
  funext a
  refine Fin.ext ?_
  have hb := b.isLt; have hh := h.isLt; have hw := w.isLt
  match a with
  | ⟨0, _⟩ => show ((b.val * 1024 + h.val) * 1024 + w.val) / 1048576 = b.val; omega
  | ⟨1, _⟩ => rfl
  | ⟨2, _⟩ => show ((b.val * 1024 + h.val) * 1024 + w.val) / 1024 % 1024 = h.val; omega
  | ⟨3, _⟩ => show ((b.val * 1024 + h.val) * 1024 + w.val) % 1024 = w.val; omega

/-! ## Floor, fraction and nodes on each axis, at any pixel -/

theorem red_frac (x0 : (⟨S8x3x1024x1024, .f32⟩ : BufTy).Contents (Elt Ideal)) (j : S8x1024x1024.Idx) :
    val_main_v18 (F := Ideal) x0 j = frac (val_main_v12 (F := Ideal) x0 j) := rfl
theorem red_lo (x0 : (⟨S8x3x1024x1024, .f32⟩ : BufTy).Contents (Elt Ideal)) (j : S8x1024x1024.Idx) :
    val_main_v19 (F := Ideal) x0 j = lo (val_main_v12 (F := Ideal) x0 j) := rfl
theorem red_hi (x0 : (⟨S8x3x1024x1024, .f32⟩ : BufTy).Contents (Elt Ideal)) (j : S8x1024x1024.Idx) :
    val_main_v23 (F := Ideal) x0 j = hi (val_main_v12 (F := Ideal) x0 j) := by
  simp only [val_main_v23_apply, val_main_v22_apply, val_main_c_6_apply, val_main_v21_apply, val_main_v20_apply,
    val_main_c_5_apply]
  rfl

theorem green_frac (x0 : (⟨S8x3x1024x1024, .f32⟩ : BufTy).Contents (Elt Ideal)) (j : S8x1024x1024.Idx) :
    val_main_v25 (F := Ideal) x0 j = frac (val_main_v14 (F := Ideal) x0 j) := rfl
theorem green_lo (x0 : (⟨S8x3x1024x1024, .f32⟩ : BufTy).Contents (Elt Ideal)) (j : S8x1024x1024.Idx) :
    val_main_v26 (F := Ideal) x0 j = lo (val_main_v14 (F := Ideal) x0 j) := rfl
theorem green_hi (x0 : (⟨S8x3x1024x1024, .f32⟩ : BufTy).Contents (Elt Ideal)) (j : S8x1024x1024.Idx) :
    val_main_v30 (F := Ideal) x0 j = hi (val_main_v14 (F := Ideal) x0 j) := by
  simp only [val_main_v30_apply, val_main_v29_apply, val_main_c_8_apply, val_main_v28_apply, val_main_v27_apply,
    val_main_c_7_apply]
  rfl

theorem blue_frac (x0 : (⟨S8x3x1024x1024, .f32⟩ : BufTy).Contents (Elt Ideal)) (j : S8x1024x1024.Idx) :
    val_main_v32 (F := Ideal) x0 j = frac (val_main_v16 (F := Ideal) x0 j) := rfl
theorem blue_lo (x0 : (⟨S8x3x1024x1024, .f32⟩ : BufTy).Contents (Elt Ideal)) (j : S8x1024x1024.Idx) :
    val_main_v33 (F := Ideal) x0 j = lo (val_main_v16 (F := Ideal) x0 j) := rfl
theorem blue_hi (x0 : (⟨S8x3x1024x1024, .f32⟩ : BufTy).Contents (Elt Ideal)) (j : S8x1024x1024.Idx) :
    val_main_v37 (F := Ideal) x0 j = hi (val_main_v16 (F := Ideal) x0 j) := by
  simp only [val_main_v37_apply, val_main_v36_apply, val_main_c_10_apply, val_main_v35_apply, val_main_v34_apply,
    val_main_c_9_apply]
  rfl

/-! ## The eight corners' flat positions, wrapped, at any pixel

Corner (i, j, k) has i on the blue axis, j on the green axis and k on the red axis. -/

theorem pos_lll (x0 : (⟨S8x3x1024x1024, .f32⟩ : BufTy).Contents (Elt Ideal)) (j : S8x1024x1024.Idx) :
    val_main_v49 (F := Ideal) x0 j = wrap (flat (lo (val_main_v16 (F := Ideal) x0 j)) (lo (val_main_v14 (F := Ideal) x0 j))
      (lo (val_main_v12 (F := Ideal) x0 j))) := by
  simp only [val_main_v49_apply, val_main_v48_apply, val_main_v47_apply, val_main_c_14_apply, val_main_v46_apply,
    val_main_v45_apply, val_main_c_13_apply, val_main_v44_apply, val_main_v43_apply, val_main_v42_apply,
    val_main_c_12_apply, val_main_v41_apply, val_main_v40_apply, val_main_v39_apply, val_main_c_11_apply,
    blue_lo, green_lo, red_lo]
  rfl

theorem pos_llh (x0 : (⟨S8x3x1024x1024, .f32⟩ : BufTy).Contents (Elt Ideal)) (j : S8x1024x1024.Idx) :
    val_main_v67 (F := Ideal) x0 j = wrap (flat (lo (val_main_v16 (F := Ideal) x0 j)) (lo (val_main_v14 (F := Ideal) x0 j))
      (hi (val_main_v12 (F := Ideal) x0 j))) := by
  simp only [val_main_v67_apply, val_main_v66_apply, val_main_v65_apply, val_main_c_19_apply, val_main_v64_apply,
    val_main_v63_apply, val_main_c_18_apply, val_main_v62_apply, val_main_v61_apply, val_main_v60_apply,
    val_main_c_17_apply, val_main_v59_apply, val_main_v58_apply, val_main_v57_apply, val_main_c_16_apply,
    blue_lo, green_lo, red_hi]
  rfl

theorem pos_lhl (x0 : (⟨S8x3x1024x1024, .f32⟩ : BufTy).Contents (Elt Ideal)) (j : S8x1024x1024.Idx) :
    val_main_v84 (F := Ideal) x0 j = wrap (flat (lo (val_main_v16 (F := Ideal) x0 j)) (hi (val_main_v14 (F := Ideal) x0 j))
      (lo (val_main_v12 (F := Ideal) x0 j))) := by
  simp only [val_main_v84_apply, val_main_v83_apply, val_main_v82_apply, val_main_c_23_apply, val_main_v81_apply,
    val_main_v80_apply, val_main_c_22_apply, val_main_v79_apply, val_main_v78_apply, val_main_v77_apply,
    val_main_c_21_apply, val_main_v76_apply, val_main_v75_apply, val_main_v74_apply, val_main_c_20_apply,
    blue_lo, green_hi, red_lo]
  rfl

theorem pos_lhh (x0 : (⟨S8x3x1024x1024, .f32⟩ : BufTy).Contents (Elt Ideal)) (j : S8x1024x1024.Idx) :
    val_main_v102 (F := Ideal) x0 j = wrap (flat (lo (val_main_v16 (F := Ideal) x0 j)) (hi (val_main_v14 (F := Ideal) x0 j))
      (hi (val_main_v12 (F := Ideal) x0 j))) := by
  simp only [val_main_v102_apply, val_main_v101_apply, val_main_v100_apply, val_main_c_28_apply, val_main_v99_apply,
    val_main_v98_apply, val_main_c_27_apply, val_main_v97_apply, val_main_v96_apply, val_main_v95_apply,
    val_main_c_26_apply, val_main_v94_apply, val_main_v93_apply, val_main_v92_apply, val_main_c_25_apply,
    blue_lo, green_hi, red_hi]
  rfl

theorem pos_hll (x0 : (⟨S8x3x1024x1024, .f32⟩ : BufTy).Contents (Elt Ideal)) (j : S8x1024x1024.Idx) :
    val_main_v119 (F := Ideal) x0 j = wrap (flat (hi (val_main_v16 (F := Ideal) x0 j)) (lo (val_main_v14 (F := Ideal) x0 j))
      (lo (val_main_v12 (F := Ideal) x0 j))) := by
  simp only [val_main_v119_apply, val_main_v118_apply, val_main_v117_apply, val_main_c_32_apply, val_main_v116_apply,
    val_main_v115_apply, val_main_c_31_apply, val_main_v114_apply, val_main_v113_apply, val_main_v112_apply,
    val_main_c_30_apply, val_main_v111_apply, val_main_v110_apply, val_main_v109_apply, val_main_c_29_apply,
    blue_hi, green_lo, red_lo]
  rfl

theorem pos_hlh (x0 : (⟨S8x3x1024x1024, .f32⟩ : BufTy).Contents (Elt Ideal)) (j : S8x1024x1024.Idx) :
    val_main_v137 (F := Ideal) x0 j = wrap (flat (hi (val_main_v16 (F := Ideal) x0 j)) (lo (val_main_v14 (F := Ideal) x0 j))
      (hi (val_main_v12 (F := Ideal) x0 j))) := by
  simp only [val_main_v137_apply, val_main_v136_apply, val_main_v135_apply, val_main_c_37_apply, val_main_v134_apply,
    val_main_v133_apply, val_main_c_36_apply, val_main_v132_apply, val_main_v131_apply, val_main_v130_apply,
    val_main_c_35_apply, val_main_v129_apply, val_main_v128_apply, val_main_v127_apply, val_main_c_34_apply,
    blue_hi, green_lo, red_hi]
  rfl

theorem pos_hhl (x0 : (⟨S8x3x1024x1024, .f32⟩ : BufTy).Contents (Elt Ideal)) (j : S8x1024x1024.Idx) :
    val_main_v154 (F := Ideal) x0 j = wrap (flat (hi (val_main_v16 (F := Ideal) x0 j)) (hi (val_main_v14 (F := Ideal) x0 j))
      (lo (val_main_v12 (F := Ideal) x0 j))) := by
  simp only [val_main_v154_apply, val_main_v153_apply, val_main_v152_apply, val_main_c_41_apply, val_main_v151_apply,
    val_main_v150_apply, val_main_c_40_apply, val_main_v149_apply, val_main_v148_apply, val_main_v147_apply,
    val_main_c_39_apply, val_main_v146_apply, val_main_v145_apply, val_main_v144_apply, val_main_c_38_apply,
    blue_hi, green_hi, red_lo]
  rfl

theorem pos_hhh (x0 : (⟨S8x3x1024x1024, .f32⟩ : BufTy).Contents (Elt Ideal)) (j : S8x1024x1024.Idx) :
    val_main_v172 (F := Ideal) x0 j = wrap (flat (hi (val_main_v16 (F := Ideal) x0 j)) (hi (val_main_v14 (F := Ideal) x0 j))
      (hi (val_main_v12 (F := Ideal) x0 j))) := by
  simp only [val_main_v172_apply, val_main_v171_apply, val_main_v170_apply, val_main_c_46_apply, val_main_v169_apply,
    val_main_v168_apply, val_main_c_45_apply, val_main_v167_apply, val_main_v166_apply, val_main_v165_apply,
    val_main_c_44_apply, val_main_v164_apply, val_main_v163_apply, val_main_v162_apply, val_main_c_43_apply,
    blue_hi, green_hi, red_hi]
  rfl

/-! ## The table in rows of 35937, and the eight gathers -/

/-- Row c of the reshaped table at a flat position is channel c of the table at that position's three digits. -/
theorem table_at (x1 : (⟨S3x33x33x33, .f32⟩ : BufTy).Contents (Elt Ideal)) (c : Fin 3) (n : Fin 35937) :
    val_main_v38 (F := Ideal) x1 (ix2 c n) = tab (fun a b' k => x1 (ix4 c a b' k)) n := by
  rw [val_main_v38_apply]
  unfold tab
  show x1 _ = x1 _
  congr 1
  funext a
  refine Fin.ext ?_
  have hc := c.isLt; have hn := n.isLt
  match a with
  | ⟨0, _⟩ => show (c.val * 35937 + n.val) / 35937 = c.val; omega
  | ⟨1, _⟩ => show (c.val * 35937 + n.val) / 1089 % 33 = n.val / 1089; omega
  | ⟨2, _⟩ => show (c.val * 35937 + n.val) / 33 % 33 = n.val / 33 % 33; omega
  | ⟨3, _⟩ => show (c.val * 35937 + n.val) % 33 = n.val % 33; omega

/-- A gather of the table's columns at pixel (b, h, w), channel c, whose start index there is the wrapped flat
    position of corner (i, j, k), is the table at that corner. -/
theorem gather_at (x1 : (⟨S3x33x33x33, .f32⟩ : BufTy).Contents (Elt Ideal)) (sidx : (⟨S8x1024x1024x1, .i32⟩ : BufTy).Contents (Elt Ideal))
    (c : Fin 3) (b : Fin 8) (h w : Fin 1024) (i j k : BitVec 32)
    (hs : sidx (ix4 b h w (0 : Fin 1)) = wrap (flat i j k)) :
    Host.gather gather_S3x35937_S8x1024x1024x1_S3x8x1024x1024_0_1_n_n_1_3_31 (val_main_v38 (F := Ideal) x1) sidx
      (ix4 c b h w) = corner (fun a b' k' => x1 (ix4 c a b' k')) i j k := by
  refine (gather_cols_apply (C := 3) (N := 35937) (B := 8) (H := 1024) (W := 1024) (by decide)
    Cert.ReferenceIdeal.Gen.gather_S3x35937_S8x1024x1024x1_S3x8x1024x1024_0_1_n_n_1_3_31_wf
    (val_main_v38 (F := Ideal) x1) sidx c b h w).trans ?_
  rw [table_at]
  unfold corner
  exact congrArg (tab _) (Fin.ext (congrArg (fun n : BitVec 32 => min n.toInt.toNat 35936) hs))

/-- The start indices are the wrapped positions with a unit axis added. -/
theorem start_ix (b : Fin 8) (h w : Fin 1024) : idx_main_v50 (ix4 b h w (0 : Fin 1)) = ix3 b h w := by
  funext a; match a with | ⟨0, _⟩ => rfl | ⟨1, _⟩ => rfl | ⟨2, _⟩ => rfl

section Corners
variable (x0 : (⟨S8x3x1024x1024, .f32⟩ : BufTy).Contents (Elt Ideal)) (x1 : (⟨S3x33x33x33, .f32⟩ : BufTy).Contents (Elt Ideal)) (c : Fin 3) (b : Fin 8) (h w : Fin 1024)

local notation "L" => (fun a b' k => x1 (ix4 c a b' k))
local notation "tk" => coordR (x0 (ix4 b 0 h w))
local notation "tj" => coordR (x0 (ix4 b 1 h w))
local notation "ti" => coordR (x0 (ix4 b 2 h w))

theorem corner_lll : val_main_v51 (F := Ideal) x0 x1 (ix4 c b h w) = corner L (lo ti) (lo tj) (lo tk) :=
  gather_at x1 _ c b h w _ _ _ (by
    rw [val_main_v50_apply]; show val_main_v49 (F := Ideal) x0 (idx_main_v50 (ix4 b h w (0 : Fin 1))) = _
    rw [start_ix, pos_lll, red_at, green_at, blue_at])
theorem corner_llh : val_main_v69 (F := Ideal) x0 x1 (ix4 c b h w) = corner L (lo ti) (lo tj) (hi tk) :=
  gather_at x1 _ c b h w _ _ _ (by
    rw [val_main_v68_apply]; show val_main_v67 (F := Ideal) x0 (idx_main_v50 (ix4 b h w (0 : Fin 1))) = _
    rw [start_ix, pos_llh, red_at, green_at, blue_at])
theorem corner_lhl : val_main_v86 (F := Ideal) x0 x1 (ix4 c b h w) = corner L (lo ti) (hi tj) (lo tk) :=
  gather_at x1 _ c b h w _ _ _ (by
    rw [val_main_v85_apply]; show val_main_v84 (F := Ideal) x0 (idx_main_v50 (ix4 b h w (0 : Fin 1))) = _
    rw [start_ix, pos_lhl, red_at, green_at, blue_at])
theorem corner_lhh : val_main_v104 (F := Ideal) x0 x1 (ix4 c b h w) = corner L (lo ti) (hi tj) (hi tk) :=
  gather_at x1 _ c b h w _ _ _ (by
    rw [val_main_v103_apply]; show val_main_v102 (F := Ideal) x0 (idx_main_v50 (ix4 b h w (0 : Fin 1))) = _
    rw [start_ix, pos_lhh, red_at, green_at, blue_at])
theorem corner_hll : val_main_v121 (F := Ideal) x0 x1 (ix4 c b h w) = corner L (hi ti) (lo tj) (lo tk) :=
  gather_at x1 _ c b h w _ _ _ (by
    rw [val_main_v120_apply]; show val_main_v119 (F := Ideal) x0 (idx_main_v50 (ix4 b h w (0 : Fin 1))) = _
    rw [start_ix, pos_hll, red_at, green_at, blue_at])
theorem corner_hlh : val_main_v139 (F := Ideal) x0 x1 (ix4 c b h w) = corner L (hi ti) (lo tj) (hi tk) :=
  gather_at x1 _ c b h w _ _ _ (by
    rw [val_main_v138_apply]; show val_main_v137 (F := Ideal) x0 (idx_main_v50 (ix4 b h w (0 : Fin 1))) = _
    rw [start_ix, pos_hlh, red_at, green_at, blue_at])
theorem corner_hhl : val_main_v156 (F := Ideal) x0 x1 (ix4 c b h w) = corner L (hi ti) (hi tj) (lo tk) :=
  gather_at x1 _ c b h w _ _ _ (by
    rw [val_main_v155_apply]; show val_main_v154 (F := Ideal) x0 (idx_main_v50 (ix4 b h w (0 : Fin 1))) = _
    rw [start_ix, pos_hhl, red_at, green_at, blue_at])
theorem corner_hhh : val_main_v174 (F := Ideal) x0 x1 (ix4 c b h w) = corner L (hi ti) (hi tj) (hi tk) :=
  gather_at x1 _ c b h w _ _ _ (by
    rw [val_main_v173_apply]; show val_main_v172 (F := Ideal) x0 (idx_main_v50 (ix4 b h w (0 : Fin 1))) = _
    rw [start_ix, pos_hhh, red_at, green_at, blue_at])

end Corners

/-! ## The weights, spread over the channel axis, and the blend -/

/-- A value on the pixels, given a leading unit axis and then spread over the three channels, read at
    (c, b, h, w), is the value at the pixel. -/
theorem spread_ix (c : Fin 3) (b : Fin 8) (h w : Fin 1024) :
    idx_main_v54 (idx_main_v55 (ix4 c b h w)) = ix3 b h w := by
  funext a; match a with | ⟨0, _⟩ => rfl | ⟨1, _⟩ => rfl | ⟨2, _⟩ => rfl

section Blend
variable (x0 : (⟨S8x3x1024x1024, .f32⟩ : BufTy).Contents (Elt Ideal)) (x1 : (⟨S3x33x33x33, .f32⟩ : BufTy).Contents (Elt Ideal)) (c : Fin 3) (b : Fin 8) (h w : Fin 1024)

local notation "tk" => coordR (x0 (ix4 b 0 h w))
local notation "tj" => coordR (x0 (ix4 b 1 h w))
local notation "ti" => coordR (x0 (ix4 b 2 h w))

theorem w_red_lo_a : val_main_v55 (F := Ideal) x0 (ix4 c b h w) = c1 - frac tk := by
  rw [val_main_v55_apply, val_main_v54_apply]
  show val_main_v53 (F := Ideal) x0 (idx_main_v54 (idx_main_v55 (ix4 c b h w))) = _
  rw [spread_ix, val_main_v53_apply, val_main_v52_apply, val_main_cst_15_apply, red_frac, red_at]; rfl
theorem w_red_hi_a : val_main_v71 (F := Ideal) x0 (ix4 c b h w) = frac tk := by
  rw [val_main_v71_apply, val_main_v70_apply]
  show val_main_v18 (F := Ideal) x0 (idx_main_v54 (idx_main_v55 (ix4 c b h w))) = _
  rw [spread_ix, red_frac, red_at]
theorem w_red_lo_b : val_main_v90 (F := Ideal) x0 (ix4 c b h w) = c1 - frac tk := by
  rw [val_main_v90_apply, val_main_v89_apply]
  show val_main_v88 (F := Ideal) x0 (idx_main_v54 (idx_main_v55 (ix4 c b h w))) = _
  rw [spread_ix, val_main_v88_apply, val_main_v87_apply, val_main_cst_24_apply, red_frac, red_at]; rfl
theorem w_red_hi_b : val_main_v106 (F := Ideal) x0 (ix4 c b h w) = frac tk := by
  rw [val_main_v106_apply, val_main_v105_apply]
  show val_main_v18 (F := Ideal) x0 (idx_main_v54 (idx_main_v55 (ix4 c b h w))) = _
  rw [spread_ix, red_frac, red_at]
theorem w_red_lo_c : val_main_v125 (F := Ideal) x0 (ix4 c b h w) = c1 - frac tk := by
  rw [val_main_v125_apply, val_main_v124_apply]
  show val_main_v123 (F := Ideal) x0 (idx_main_v54 (idx_main_v55 (ix4 c b h w))) = _
  rw [spread_ix, val_main_v123_apply, val_main_v122_apply, val_main_cst_33_apply, red_frac, red_at]; rfl
theorem w_red_hi_c : val_main_v141 (F := Ideal) x0 (ix4 c b h w) = frac tk := by
  rw [val_main_v141_apply, val_main_v140_apply]
  show val_main_v18 (F := Ideal) x0 (idx_main_v54 (idx_main_v55 (ix4 c b h w))) = _
  rw [spread_ix, red_frac, red_at]
theorem w_red_lo_d : val_main_v160 (F := Ideal) x0 (ix4 c b h w) = c1 - frac tk := by
  rw [val_main_v160_apply, val_main_v159_apply]
  show val_main_v158 (F := Ideal) x0 (idx_main_v54 (idx_main_v55 (ix4 c b h w))) = _
  rw [spread_ix, val_main_v158_apply, val_main_v157_apply, val_main_cst_42_apply, red_frac, red_at]; rfl
theorem w_red_hi_d : val_main_v176 (F := Ideal) x0 (ix4 c b h w) = frac tk := by
  rw [val_main_v176_apply, val_main_v175_apply]
  show val_main_v18 (F := Ideal) x0 (idx_main_v54 (idx_main_v55 (ix4 c b h w))) = _
  rw [spread_ix, red_frac, red_at]

theorem w_green_lo_a : val_main_v182 (F := Ideal) x0 (ix4 c b h w) = c1 - frac tj := by
  rw [val_main_v182_apply, val_main_v181_apply]
  show val_main_v180 (F := Ideal) x0 (idx_main_v54 (idx_main_v55 (ix4 c b h w))) = _
  rw [spread_ix, val_main_v180_apply, val_main_v179_apply, val_main_cst_47_apply, green_frac, green_at]; rfl
theorem w_green_hi_a : val_main_v185 (F := Ideal) x0 (ix4 c b h w) = frac tj := by
  rw [val_main_v185_apply, val_main_v184_apply]
  show val_main_v25 (F := Ideal) x0 (idx_main_v54 (idx_main_v55 (ix4 c b h w))) = _
  rw [spread_ix, green_frac, green_at]
theorem w_green_lo_b : val_main_v196 (F := Ideal) x0 (ix4 c b h w) = c1 - frac tj := by
  rw [val_main_v196_apply, val_main_v195_apply]
  show val_main_v194 (F := Ideal) x0 (idx_main_v54 (idx_main_v55 (ix4 c b h w))) = _
  rw [spread_ix, val_main_v194_apply, val_main_v193_apply, val_main_cst_49_apply, green_frac, green_at]; rfl
theorem w_green_hi_b : val_main_v199 (F := Ideal) x0 (ix4 c b h w) = frac tj := by
  rw [val_main_v199_apply, val_main_v198_apply]
  show val_main_v25 (F := Ideal) x0 (idx_main_v54 (idx_main_v55 (ix4 c b h w))) = _
  rw [spread_ix, green_frac, green_at]

theorem w_blue_lo : val_main_v191 (F := Ideal) x0 (ix4 c b h w) = c1 - frac ti := by
  rw [val_main_v191_apply, val_main_v190_apply]
  show val_main_v189 (F := Ideal) x0 (idx_main_v54 (idx_main_v55 (ix4 c b h w))) = _
  rw [spread_ix, val_main_v189_apply, val_main_v188_apply, val_main_cst_48_apply, blue_frac, blue_at]; rfl
theorem w_blue_hi : val_main_v203 (F := Ideal) x0 (ix4 c b h w) = frac ti := by
  rw [val_main_v203_apply, val_main_v202_apply]
  show val_main_v32 (F := Ideal) x0 (idx_main_v54 (idx_main_v55 (ix4 c b h w))) = _
  rw [spread_ix, blue_frac, blue_at]

end Blend

/-- The result is stored with the batch axis first: entry (b, c, h, w) is the blend's entry (c, b, h, w). -/
theorem out_ix (b : Fin 8) (c : Fin 3) (h w : Fin 1024) : idx_main_v206 (ix4 b c h w) = ix4 c b h w := by
  funext a; match a with | ⟨0, _⟩ => rfl | ⟨1, _⟩ => rfl | ⟨2, _⟩ => rfl | ⟨3, _⟩ => rfl

theorem ref_apply (x0 : (⟨S8x3x1024x1024, .f32⟩ : BufTy).Contents (Elt Ideal)) (x1 : (⟨S3x33x33x33, .f32⟩ : BufTy).Contents (Elt Ideal))
    (b : Fin 8) (c : Fin 3) (h w : Fin 1024) :
    Cert.ReferenceIdeal.Read.val_main_v206 (F := Ideal) x0 x1 (ix4 b c h w)
      = refPixel (x0 (ix4 b 0 h w)) (x0 (ix4 b 1 h w)) (x0 (ix4 b 2 h w)) (fun a b' k => x1 (ix4 c a b' k)) := by
  rw [val_main_v206_apply, out_ix]
  simp only [val_main_v205_apply, val_main_v204_apply, val_main_v201_apply, val_main_v200_apply, val_main_v197_apply,
    val_main_v192_apply, val_main_v187_apply, val_main_v186_apply, val_main_v183_apply, val_main_v178_apply,
    val_main_v177_apply, val_main_v161_apply, val_main_v143_apply, val_main_v142_apply, val_main_v126_apply,
    val_main_v108_apply, val_main_v107_apply, val_main_v91_apply, val_main_v73_apply, val_main_v72_apply,
    val_main_v56_apply,
    corner_lll, corner_llh, corner_lhl, corner_lhh, corner_hll, corner_hlh, corner_hhl, corner_hhh,
    w_red_lo_a, w_red_hi_a, w_red_lo_b, w_red_hi_b, w_red_lo_c, w_red_hi_c, w_red_lo_d, w_red_hi_d,
    w_green_lo_a, w_green_hi_a, w_green_lo_b, w_green_hi_b, w_blue_lo, w_blue_hi]
  rfl

end Cert.Lut

end
-- ==== Proof.lean ====
/-
  A trilinear 3-D lookup-table colour transform on 8 images of 3 × 1024 × 1024, table 3 × 33 × 33 × 33.

  Per pixel and per output channel c, both programs interpolate channel c of the table at the lattice point
  32·(red, green, blue) clamped to [0, 32]³. The reference reads the eight corners of the cell and blends them along red,
  then green, then blue, with weights 1 − w and w (w the coordinate's fractional part). The kernel builds on each axis the
  vector of 33 hat weights — 1 − w on the lower node plus w on the upper one, zero elsewhere — and contracts the table with
  the three vectors, the red axis by a matrix product, the green and blue axes by weighted sums. On finite data the
  contraction with a hat vector picks exactly the two nodes with their weights (distributivity, which needs every factor
  finite: the precondition), so the two results are one number, `Cert.Lut.refPixel_eq_pixel`.

  The kernel's frames and the reference's run are the generated modules'; the kernel's output array as the whole-array
  function `Cert.Lut.G` is read off the generated blockwise value leg (`Cert.Lut.kernel_run`: the body's block at an index,
  then the 8·64·8 rectangles tile the array); the reference's result at an index is read off the generated per-operation
  lemmas (`Cert.Lut.ref_apply`). No rewrite was applied by the ideal pass, so `preserves` is trivial.
-/
import proofs.«110537_j28467043237891_1_alg».proof.Defs
import proofs.«110537_j28467043237891_1_alg».proof.Proof.Gen.Kernel
import proofs.«110537_j28467043237891_1_alg».proof.Proof.Gen.Kernel.Skeleton
import proofs.«110537_j28467043237891_1_alg».proof.Proof.Gen.Kernel.Launch
import proofs.«110537_j28467043237891_1_alg».proof.Proof.Gen.Kernel.Points
import proofs.«110537_j28467043237891_1_alg».proof.Proof.Gen.Kernel.Frame
import proofs.«110537_j28467043237891_1_alg».proof.Proof.Gen.KernelIdeal
import proofs.«110537_j28467043237891_1_alg».proof.Proof.Gen.KernelIdeal.Skeleton
import proofs.«110537_j28467043237891_1_alg».proof.Proof.Gen.KernelIdeal.Launch
import proofs.«110537_j28467043237891_1_alg».proof.Proof.Gen.KernelIdeal.Points
import proofs.«110537_j28467043237891_1_alg».proof.Proof.Gen.KernelIdeal.Frame
import proofs.«110537_j28467043237891_1_alg».proof.Proof.Gen.KernelIdeal.Value
import proofs.«110537_j28467043237891_1_alg».proof.Proof.Gen.ReferenceIdeal
import proofs.«110537_j28467043237891_1_alg».proof.Proof.Gen.ReferenceIdeal.Run
import proofs.«110537_j28467043237891_1_alg».proof.Proof.Gen.ReferenceIdeal.Read
import proofs.«110537_j28467043237891_1_alg».proof.Proof.Gen.Pre_finite_inputs
import proofs.«110537_j28467043237891_1_alg».proof.Proof.Spec
import proofs.«110537_j28467043237891_1_alg».proof.Proof.Blend
import proofs.«110537_j28467043237891_1_alg».proof.Proof.Finite
import proofs.«110537_j28467043237891_1_alg».proof.Proof.KernelValue
import proofs.«110537_j28467043237891_1_alg».proof.Proof.RefPixel
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the transformed image `G` of the arguments: the kernel by its blocks, the reference entry by
    entry through the eight-corner form, which on the finite data the precondition grants is the separable form. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Lut.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.Lut.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v206_eq, (hagree c).1, (hagree c).2]
  obtain ⟨hx, hL⟩ := Cert.Lut.finite_of_pre _ _ (hpre c)
  choose fx hfx using hx
  choose fL hfL using hL
  funext i
  refine (congrArg (Cert.ReferenceIdeal.Read.val_main_v206 (F := Ideal) _ _) (eq_ix4 i)).trans ?_
  refine (Cert.Lut.ref_apply _ _ (i 0) (i 1) (i 2) (i 3)).trans ?_
  show _ = Cert.Lut.G _ _ i
  unfold Cert.Lut.G
  simp only [hfx, hfL]
  exact Cert.Lut.refPixel_eq_pixel _ _ _ (fun a b k => fL (ix4 (i 1) a b k))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
